-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  reducesTo_S640000_S_d0 : S640000.ReducesTo [0] S_

variable [Facts]

def fn_part3 {F : FTy → Type} [FloatOps F] (main_v45 : IVec S_ 1) (main_v50 : IVec S640000 1) : IVec S_ 1 :=
  let main_c_19 : IVec S_ 1 := constantI S_ 1 1#1
  let main_v51 : IVec S_ 1 := (fun x v => Host.reduce IntOp.andi x v reducesTo_S640000_S_d0 h_S_) main_v50 main_c_19
  let main_v52 : IVec S_ 1 := andi main_v45 main_v51
  main_v52

def fn_part2 {F : FTy → Type} [FloatOps F] (main_arg2 : IVec S640000 32) (main_arg3 : IVec S640000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 4294957296#32
  let main_v39 : IVec S640000 32 := broadcastInDim S640000 ![] bcast_S_S640000 main_c_14
  let main_v40 : IVec S640000 1 := cmpi .sge main_arg2 main_v39
  let main_c_15 : IVec S_ 32 := constantI S_ 32 10000#32
  let main_v41 : IVec S640000 32 := broadcastInDim S640000 ![] bcast_S_S640000 main_c_15
  let main_v42 : IVec S640000 1 := cmpi .slt main_arg2 main_v41
  let main_v43 : IVec S640000 1 := andi main_v40 main_v42
  let main_c_16 : IVec S_ 1 := constantI S_ 1 1#1
  let main_v44 : IVec S_ 1 := (fun x v => Host.reduce IntOp.andi x v reducesTo_S640000_S_d0 h_S_) main_v43 main_c_16
  let main_v45 : IVec S_ 1 := andi main_v38 main_v44
  let main_c_17 : IVec S_ 32 := constantI S_ 32 4294957296#32
  let main_v46 : IVec S640000 32 := broadcastInDim S640000 ![] bcast_S_S640000 main_c_17
  let main_v47 : IVec S640000 1 := cmpi .sge main_arg3 main_v46
  let main_c_18 : IVec S_ 32 := constantI S_ 32 10000#32
  let main_v48 : IVec S640000 32 := broadcastInDim S640000 ![] bcast_S_S640000 main_c_18
  let main_v49 : IVec S640000 1 := cmpi .slt main_arg3 main_v48
  let main_v50 : IVec S640000 1 := andi main_v47 main_v49
  fn_part3 (F := F) main_v45 main_v50

def fn_part1 {F : FTy → Type} [FloatOps F] (main_arg2 : IVec S640000 32) (main_arg3 : IVec S640000 32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg9 main_v33

def fn {F : FTy → Type} [FloatOps F] (main_arg0 : FVec F S10000x64 .f32) (main_arg1 : FVec F S640000x128 .f32) (main_arg2 : IVec S640000 32) (main_arg3 : IVec S640000 32) (main_arg4 : FVec F S256x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_v13 main_v16
-- ==== Kernel.lean ====
abbrev S10000x64 : Shape := ⟨2, ![10000, 64]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x64 : Shape := ⟨2, ![640000, 64]⟩
abbrev S64x128 : Shape := ⟨2, ![64, 128]⟩
abbrev S1x128 : Shape := ⟨2, ![1, 128]⟩
abbrev S2560x64 : Shape := ⟨2, ![2560, 64]⟩
abbrev S2560x128 : Shape := ⟨2, ![2560, 128]⟩
abbrev S2560 : Shape := ⟨1, ![2560]⟩
abbrev S2560x1 : Shape := ⟨2, ![2560, 1]⟩

abbrev nBuf : Space → Nat
  | .hbm => 64
  | .vmem => 16
  | .smem => 0
  | _ => 0

abbrev bufTy : (tb : Table) → Fin (tcTables nBuf tb) → BufTy
  | .hbm, ⟨0, _⟩ => ⟨S10000x64, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x64, .f32⟩
  | .hbm, ⟨29, _⟩ => ⟨S640000x64, .i1⟩
  | .hbm, ⟨30, _⟩ => ⟨S_, .f32⟩
  | .hbm, ⟨31, _⟩ => ⟨S640000x64, .f32⟩
  | .hbm, ⟨32, _⟩ => ⟨S640000x64, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S1, .i32⟩
  | .hbm, ⟨42, _⟩ => ⟨S_, .i32⟩
  | .hbm, ⟨43, _⟩ => ⟨S640000x1, .i32⟩
  | .hbm, ⟨44, _⟩ => ⟨S640000x1, .i1⟩
  | .hbm, ⟨45, _⟩ => ⟨S1x1, .i32⟩
  | .hbm, ⟨46, _⟩ => ⟨S640000x1, .i32⟩
  | .hbm, ⟨47, _⟩ => ⟨S640000x1, .i1⟩
  | .hbm, ⟨48, _⟩ => ⟨S640000x1, .i1⟩
  | .hbm, ⟨49, _⟩ => ⟨S_, .i1⟩
  | .hbm, ⟨50, _⟩ => ⟨S640000, .i1⟩
  | .hbm, ⟨51, _⟩ => ⟨S640000x64, .f32⟩
  | .hbm, ⟨52, _⟩ => ⟨S640000x64, .i1⟩
  | .hbm, ⟨53, _⟩ => ⟨S_, .f32⟩
  | .hbm, ⟨54, _⟩ => ⟨S640000x64, .f32⟩
  | .hbm, ⟨55, _⟩ => ⟨S640000x64, .f32⟩
  | .hbm, ⟨56, _⟩ => ⟨S64x128, .f32⟩
  | .hbm, ⟨57, _⟩ => ⟨S64x128, .f32⟩
  | .hbm, ⟨58, _⟩ => ⟨S128x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S640000x128, .f32⟩
  | .local _ .vmem, ⟨0, _⟩ => ⟨S2560x64, .f32⟩
  | .local _ .vmem, ⟨1, _⟩ => ⟨S2560x64, .f32⟩
  | .local _ .vmem, ⟨2, _⟩ => ⟨S2560x64, .f32⟩
  | .local _ .vmem, ⟨3, _⟩ => ⟨S2560x64, .f32⟩
  | .local _ .vmem, ⟨4, _⟩ => ⟨S2560x128, .f32⟩
  | .local _ .vmem, ⟨5, _⟩ => ⟨S2560x128, .f32⟩
  | .local _ .vmem, ⟨6, _⟩ => ⟨S64x128, .f32⟩
  | .local _ .vmem, ⟨7, _⟩ => ⟨S64x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2560x128, .f32⟩
  | .local _ .vmem, ⟨15, _⟩ => ⟨S2560x128, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2560x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x64_0 : S640000.BroadcastsInDim S640000x64 (![0] : Fin 1 → Fin S640000x64.rank)
  bcast_S_S640000x64 : S_.BroadcastsInDim S640000x64 (![] : Fin 0 → Fin S640000x64.rank)
  slices_S256x128_S64x128_0_0 : S256x128.Slices ![0, 0] S64x128
  slices_S256x128_S64x128_64_0 : S256x128.Slices ![64, 0] S64x128
  slices_S256x128_S128x128_128_0 : S256x128.Slices ![128, 0] S128x128
  shapeCasts_S128_S1x128 : S128.ShapeCasts S1x128
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  bitsLt_bf16_f32 : FTy.bits .bf16 < FTy.bits .f32
  inb_S2560x128_S2560x128_0_0 : ∀ a, (![0, 0] : Fin 2 → Nat) a + S2560x128.size a ≤ S2560x128.size a
  h_S2560x128 : 0 < S2560x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  reduces_S2560x128_S2560 : S2560x128.Reduces [1] S2560
  shapeCasts_S2560_S2560x1 : S2560.ShapeCasts S2560x1
  broadcasts_S2560x1_S2560x128 : S2560x1.Broadcasts S2560x128
  gather_S10000x64_S640000x1_S640000x64_1_0_n_n_0_1_164_wf : GatherDims.WF S10000x64 S640000x1 S640000x64 [1] [0] [] [0] [] 1 ![1, 64]
  dot_S2560x64_S64x128_S2560x128_1_0_0_1_n_n_wf : DotDims.WF S2560x64 S64x128 S2560x128 [1] [0] [0] [1] [] []
  dot_S2560x128_S128x128_S2560x128_1_0_0_1_n_n_wf : DotDims.WF S2560x128 S128x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x64.size a ≤ S640000x64.size a
  hwx0_0 : ∀ i : grid0.Coords, EltTy.bits .f32 = 32 ∨ (Rect.block (s := S640000x64) S2560x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x64.size a ≤ S640000x64.size a
  hwx0_1 : ∀ i : grid0.Coords, EltTy.bits .f32 = 32 ∨ (Rect.block (s := S640000x64) S2560x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .f32 = 32 ∨ (Rect.block (s := S640000x128) S2560x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2560x128.size a ≤ S640000x128.size a
  hwx0_11 : ∀ i : grid0.Coords, EltTy.bits .f32 = 32 ∨ (Rect.block (s := S640000x128) S2560x128.size (cc0_transform_11 i) (hinb0_11 i)).WholeWords (EltTy.packing .f32)

variable [Facts₀]

def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def dot_S2560x64_S64x128_S2560x128_1_0_0_1_n_n : DotDims S2560x64 S64x128 S2560x128 where
  lhsContracting := [1]
  rhsContracting := [0]
  lhsNonContracting := [0]
  rhsNonContracting := [1]
  lhsBatch := []
  rhsBatch := []
  wf := dot_S2560x64_S64x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf

abbrev win0_0 : Pipeline.Window sig grid0 :=
  Pipeline.Window.ofSpec (Memref.whole main_v0) S2560x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2560x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2560x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S2560x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S10000x64 : Shape := ⟨2, ![10000, 64]⟩
abbrev S640000x128 : Shape := ⟨2, ![640000, 128]⟩
abbrev S640000 : Shape := ⟨1, ![640000]⟩
abbrev S256x128 : Shape := ⟨2, ![256, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S640000x64 : Shape := ⟨2, ![640000, 64]⟩
abbrev S640000x256 : Shape := ⟨2, ![640000, 256]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S10000x64, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x64, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x64, .f32⟩
  | .hbm, ⟨28, _⟩ => ⟨S640000x256, .f32⟩
  | .hbm, ⟨29, _⟩ => ⟨S640000x128, .f32⟩
  | .hbm, ⟨30, _⟩ => ⟨S1x128, .f32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S640000x128, .f32⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S640000x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S1x128, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S640000x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S640000, .f32⟩
  | .hbm, ⟨58, _⟩ => ⟨S640000x1, .f32⟩
  | .hbm, ⟨59, _⟩ => ⟨S_, .f32⟩
  | .hbm, ⟨60, _⟩ => ⟨S640000x1, .f32⟩
  | .hbm, ⟨61, _⟩ => ⟨S640000x1, .f32⟩
  | .hbm, ⟨62, _⟩ => ⟨S640000x128, .f32⟩
  | .hbm, ⟨63, _⟩ => ⟨S640000x128, .f32⟩
  | .hbm, ⟨64, _⟩ => ⟨S640000x128, .f32⟩
  | .hbm, ⟨65, _⟩ => ⟨S_, .f32⟩
  | .hbm, ⟨66, _⟩ => ⟨S640000, .f32⟩
  | .hbm, ⟨67, _⟩ => ⟨S640000x1, .f32⟩
  | .hbm, ⟨68, _⟩ => ⟨S_, .f32⟩
  | .hbm, ⟨69, _⟩ => ⟨S640000x1, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S640000x1, .f32⟩
  | .hbm, ⟨75, _⟩ => ⟨S640000x1, .f32⟩
  | .hbm, ⟨76, _⟩ => ⟨S640000x1, .f32⟩
  | .hbm, ⟨77, _⟩ => ⟨S640000x128, .f32⟩
  | .hbm, ⟨78, _⟩ => ⟨S640000x128, .f32⟩
  | .hbm, ⟨79, _⟩ => ⟨S1x128, .f32⟩
  | .hbm, ⟨80, _⟩ => ⟨S640000x128, .f32⟩
  | .hbm, ⟨81, _⟩ => ⟨S640000x128, .f32⟩
  | .hbm, ⟨82, _⟩ => ⟨S1x128, .f32⟩
  | .hbm, ⟨83, _⟩ => ⟨S640000x128, .f32⟩
  | .hbm, ⟨84, _⟩ => ⟨S640000x128, .f32⟩
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v24 : Ref sig .tc := ⟨.hbm, 54, rfl⟩
abbrev main_v25 : Ref sig .tc := ⟨.hbm, 55, rfl⟩
abbrev main_cst : Ref sig .tc := ⟨.hbm, 56, rfl⟩
abbrev main_v26 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x64_S640000x64_S640000x128_S640000x256_d1 : Shape.Concatenates [S640000x64, S640000x64, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  gather_S10000x64_S640000x1_S640000x64_1_0_n_n_0_1_164_wf : GatherDims.WF S10000x64 S640000x1 S640000x64 [1] [0] [] [0] [] 1 ![1, 64]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []

variable [Facts₀]

def gather_S10000x64_S640000x1_S640000x64_1_0_n_n_0_1_164 : GatherDims S10000x64 S640000x1 S640000x64 where
  offsetDims := [1]
  collapsedSliceDims := [0]
  operandBatchingDims := []
  startIndicesBatchingDims := []
  startIndexMap := [0]
  indexVectorDim := 1
  sliceSizes := ![1, 64]
  wf := gather_S10000x64_S640000x1_S640000x64_1_0_n_n_0_1_164_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.IndexRange.lean ====
/-
  The index range, read out of the printed precondition.

  The precondition is one chain of `and` of ten conjuncts, and the claim states its value is the bit 1. The last
  two conjuncts are, for each of the two int32[640000] index inputs `a`, the reduction by `and` over all 640000 positions
  of the bit `(a ≥ -10000) and (a < 10000)`, both compares signed on 32-bit words (the word 4294957296 is -10000 read
  signed). A reduction by `and` that is 1 met only 1s; an `and` of two bits that is 1 has both bits 1; and a signed
  compare whose bit is 1 says its order of the two words read as integers. So every entry of both index inputs
  lies in [-10000, 10000).
-/
import proofs.«431330_j38311108280938_1_alg».proof.Pre_finite_inputs
import Idealize.ShloMosaic.Lib.StableHlo.Predicate
import Idealize.ShloMosaic.Lib.ReduceAll
import Idealize.ShloMosaic.Lib.ValueIdx
import Idealize.ShloMosaic.Lib.Affine

namespace Cert.IndexRange

open Idealize.ShloMosaic Cert.Pre_finite_inputs

/-- A rank-0 shape has one index. -/
instance subsingleton_scalar_idx : Subsingleton S_.Idx := ⟨fun a b => funext fun d => d.elim0⟩

/-- The word the precondition prints for the lower bound is -10000 read signed. -/
theorem toInt_lower : (4294957296#32 : BitVec 32).toInt = -10000 := by decide

/-- The word the precondition prints for the upper bound is 10000 read signed. -/
theorem toInt_upper : (10000#32 : BitVec 32).toInt = 10000 := by decide

/-- ONE RANGE CONJUNCT. If the reduction by `and`, over every position, of `(a ≥ -10000) and (a < 10000)` is 1, then every
    entry of `a`, read signed, lies in [-10000, 10000). -/
theorem range_of_all [hP : Facts] (a : IVec S640000 32)
    (e : Host.reduce IntOp.andi
        (andi (cmpi .sge a (broadcastInDim S640000 ![] Facts.bcast_S_S640000 (constantI S_ 32 4294957296#32)))
          (cmpi .slt a (broadcastInDim S640000 ![] Facts.bcast_S_S640000 (constantI S_ 32 10000#32))))
        (constantI S_ 1 1#1) Facts.reducesTo_S640000_S_d0 Facts.h_S_ ValueIdx.ix0 = 1#1)
    (i : S640000.Idx) : -10000 ≤ (a i).toInt ∧ (a i).toInt < 10000 := by
  -- the reduction met only 1s: the bit at position i is 1
  have hi := Host.reduce_andi_all _ _ _ _ _ e i
  -- the bit at i is the `and` of the two compare bits at i
  obtain ⟨hge, hlt⟩ := IntOp.andi_eq_one.1 hi
  -- each compare bit says its signed order; a broadcast scalar constant reads the constant at every position
  have hge' : (4294957296#32 : BitVec 32).toInt ≤ (a i).toInt := IntOp.cmpi_sge.1 hge
  have hlt' : (a i).toInt < (10000#32 : BitVec 32).toInt := IntOp.cmpi_slt.1 hlt
  rw [toInt_lower] at hge'
  rw [toInt_upper] at hlt'
  exact ⟨hge', hlt'⟩

/-- THE INDEX RANGE. Under the printed precondition every entry of both index inputs lies in [-10000, 10000). -/
theorem of_pre {F : FTy → Type} [FloatOps F] [hP : Cert.Pre_finite_inputs.Facts]
    (a0 : FVec F S10000x64 .f32) (a1 : FVec F S640000x128 .f32) (a2 a3 : IVec S640000 32) (a4 : FVec F S256x128 .f32)
    (a5 : FVec F S128 .f32) (a6 : FVec F S128x128 .f32) (a7 a8 a9 : FVec F S128 .f32)
    (h : Cert.Pre_finite_inputs.fn (F := F) a0 a1 a2 a3 a4 a5 a6 a7 a8 a9 = fun _ => 1#1) :
    (∀ i : S640000.Idx, -10000 ≤ (a2 i).toInt ∧ (a2 i).toInt < 10000) ∧ (∀ i : S640000.Idx, -10000 ≤ (a3 i).toInt ∧ (a3 i).toInt < 10000) := by
  -- the precondition's one value, at the one index of a scalar
  have h0 := congrFun h ValueIdx.ix0
  -- the chain: ((… and [a2's conjunct]) and [a3's conjunct])
  simp only [fn, fn_part1, fn_part2, fn_part3] at h0
  obtain ⟨h45, h3⟩ := IntOp.andi_eq_one.1 h0
  obtain ⟨_, h2⟩ := IntOp.andi_eq_one.1 h45
  exact ⟨range_of_all a2 h2, range_of_all a3 h3⟩

end Cert.IndexRange
-- ==== Proof.RowSpec.lean ====
/-
  One edge of the graph, as mathematics over the extended reals. An edge carries a row `x` of 128 features and is joined
  to two nodes whose rows `s`, `d` hold 64 features each. The update is a two-layer perceptron on the 256 numbers
  `(s, d, x)`, each layer followed by `v ↦ v · σ(v)` with `σ` the logistic function, added back to `x`, and then
  normalised: centred by its mean over the 128 columns, scaled by the reciprocal square root of its mean square deviation
  plus a small constant, multiplied by `γ` and shifted by `β`, column by column.

  The first layer is written here as three partial products, one per source of its input; that it is the one product of
  the joined row with the whole 256 × 128 matrix is `sum_split3`: a sum over 256 consecutive numbers is the sum of its
  first 64, its next 64 and its last 128 terms, which only uses that addition is associative and commutative and so
  holds at infinite entries too.
-/
import Idealize.ShloMosaic.PureOps.Ideal
import Idealize.ShloMosaic.Lib.ValueIdx
import Mathlib.Algebra.BigOperators.Fin

noncomputable section

open scoped BigOperators

namespace Cert.EdgeRow

open Idealize.ShloMosaic Idealize.ShloMosaic.ValueIdx

/-- The number of columns, 128, as the binary32 word both programs divide by. -/
def c128 : EReal := Ideal.ofBits .f32 0x43000000#32

/-- The small constant under the square root, the binary32 word nearest to 10⁻⁵ that both programs carry. -/
def ceps : EReal := Ideal.ofBits .f32 0x3727C5AC#32

/-- `v · σ(v)`, with `σ(v) = 1 / (1 + e^(-v))`. -/
def silu (v : EReal) : EReal := v * Ideal.logistic v

/-- The first layer before its activation, column `n`: the three partial products and the bias. -/
def proj (s d : Fin 64 → EReal) (x : Fin 128 → EReal) (ws wd : Fin 64 → Fin 128 → EReal)
    (we : Fin 128 → Fin 128 → EReal) (b1 : Fin 128 → EReal) (n : Fin 128) : EReal :=
  (∑ k, s k * ws k n) + (∑ k, d k * wd k n) + (∑ k, x k * we k n) + b1 n

/-- The second layer before its activation, column `n`, of the first layer's values `p` before theirs. -/
def layer2 (p : Fin 128 → EReal) (w2 : Fin 128 → Fin 128 → EReal) (b2 : Fin 128 → EReal) (n : Fin 128) : EReal :=
  (∑ k, silu (p k) * w2 k n) + b2 n

/-- The edge's row plus the activated second layer. -/
def resid (x q : Fin 128 → EReal) (n : Fin 128) : EReal := x n + silu (q n)

/-- The mean over the 128 columns. -/
def mean (y : Fin 128 → EReal) : EReal := Ideal.div (∑ k, y k) c128

/-- The normalisation of a row `y`, column `n`. -/
def lnorm (y γ β : Fin 128 → EReal) (n : Fin 128) : EReal :=
  (y n - mean y) * Ideal.rsqrt (mean (fun k => (y k - mean y) * (y k - mean y)) + ceps) * γ n + β n

/-- The updated edge row, column `n`. -/
def rowOut (s d : Fin 64 → EReal) (x : Fin 128 → EReal) (ws wd : Fin 64 → Fin 128 → EReal)
    (we : Fin 128 → Fin 128 → EReal) (b1 : Fin 128 → EReal) (w2 : Fin 128 → Fin 128 → EReal)
    (b2 γ β : Fin 128 → EReal) (n : Fin 128) : EReal :=
  lnorm (resid x (layer2 (proj s d x ws wd we b1) w2 b2)) γ β n

/-- A sum over 256 consecutive numbers in three stretches: the first 64, the next 64, the last 128. -/
theorem sum_split3 {M : Type*} [AddCommMonoid M] (f : Fin 256 → M) :
    ∑ k : Fin 256, f k
      = (∑ k : Fin 64, f ⟨k.val, by omega⟩) + (∑ k : Fin 64, f ⟨64 + k.val, by omega⟩)
        + ∑ k : Fin 128, f ⟨128 + k.val, by omega⟩ := by
  have h1 : ∑ k : Fin 256, f k = ∑ k : Fin (128 + 128), f ⟨k.val, k.isLt⟩ := rfl
  rw [h1, Fin.sum_univ_add]
  have h2 : ∑ k : Fin 128, f ⟨(Fin.castAdd 128 k).val, (Fin.castAdd 128 k).isLt⟩
      = ∑ k : Fin (64 + 64), f ⟨k.val, by omega⟩ := rfl
  rw [h2, Fin.sum_univ_add]
  rfl

/-- The whole update: output row `i 0`, column `i 1`, from the two gathered node tables `src`, `dst` (one row per
    edge), the edge features, and the parameters as the arrays the programs are given. The first layer's matrix `W1`
    has its rows 0–63 for the first node, 64–127 for the second, 128–255 for the edge's own features. -/
def edgeUpdate (src dst : (⟨2, ![640000, 64]⟩ : Shape).Idx → EReal) (edge : (⟨2, ![640000, 128]⟩ : Shape).Idx → EReal)
    (W1 : (⟨2, ![256, 128]⟩ : Shape).Idx → EReal) (b1 : (⟨1, ![128]⟩ : Shape).Idx → EReal)
    (W2 : (⟨2, ![128, 128]⟩ : Shape).Idx → EReal) (b2 γ β : (⟨1, ![128]⟩ : Shape).Idx → EReal) :
    (⟨2, ![640000, 128]⟩ : Shape).Idx → EReal :=
  fun i =>
    rowOut (fun k => src (ix2 (i 0 : Fin 640000) k)) (fun k => dst (ix2 (i 0 : Fin 640000) k))
      (fun k => edge (ix2 (i 0 : Fin 640000) k))
      (fun k n => W1 (ix2 (⟨k.val, by omega⟩ : Fin 256) n)) (fun k n => W1 (ix2 (⟨64 + k.val, by omega⟩ : Fin 256) n))
      (fun k n => W1 (ix2 (⟨128 + k.val, by omega⟩ : Fin 256) n))
      (fun n => b1 (ix1 n)) (fun k n => W2 (ix2 k n)) (fun n => b2 (ix1 n)) (fun n => γ (ix1 n)) (fun n => β (ix1 n))
      (i 1 : Fin 128)

end Cert.EdgeRow

end
-- ==== Proof.KernelRow.lean ====
/-
  One output block of the edge update, entry by entry. The body works on a block of 2560 edges at a time: it multiplies
  the two gathered node blocks and the edge block by the three row stretches of the first weight matrix, adds the three
  products and the bias, applies `v ↦ v · σ(v)`, multiplies by the second weight matrix, adds its bias, applies
  `v ↦ v · σ(v)` again and adds the edge block back; then it normalises every row by its mean and its mean square
  deviation over the 128 columns and applies `γ` and `β`.

  Read at row `r` and column `n`, every one of these block operations involves row `r` only: a product of blocks is the
  sum over the contracted position of the left block's row `r` times the right block's column `n`; a sum along the
  second axis is the sum of row `r`'s 128 entries; a bias row or a column of row statistics repeated over the block is
  read at `n`, respectively at `r`. So the entry the body stores is the specification's updated edge row, of the rows
  `r` of the three input blocks, at column `n`: `E11_apply`.
-/
import proofs.«431330_j38311108280938_1_alg».proof.Proof.ValuePatched
import proofs.«431330_j38311108280938_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.EdgeRowValue

open Cert.KernelIdeal Cert.KernelIdeal.Gen Idealize.ShloMosaic Idealize.ShloMosaic.TcCoe Idealize.SL.Sem
open Idealize.ShloMosaic.ValueIdx

/-! ### The contraction of a [2560, 64] block with a [64, 128] block -/

theorem lhs64_0 (i : S2560x128.Idx) (q : dot_S2560x64_S64x128_S2560x128_1_0_0_1_n_n.contr.Idx) :
    (dot_S2560x64_S64x128_S2560x128_1_0_0_1_n_n.lhsIdx i q 0).val = (i 0).val := by
  unfold DotDims.lhsIdx
  rw [dif_neg (show ¬(0 : Fin S2560x64.rank) ∈ dot_S2560x64_S64x128_S2560x128_1_0_0_1_n_n.lhsBatch by decide), dif_pos (show (0 : Fin S2560x64.rank) ∈ dot_S2560x64_S64x128_S2560x128_1_0_0_1_n_n.lhsNonContracting by decide)]
  rfl
theorem lhs64_1 (i : S2560x128.Idx) (q : dot_S2560x64_S64x128_S2560x128_1_0_0_1_n_n.contr.Idx) :
    (dot_S2560x64_S64x128_S2560x128_1_0_0_1_n_n.lhsIdx i q 1).val = (q ⟨0, by decide⟩).val :=
  dot_S2560x64_S64x128_S2560x128_1_0_0_1_n_n.lhsIdx_val_of_single rfl i q
theorem rhs64_0 (i : S2560x128.Idx) (q : dot_S2560x64_S64x128_S2560x128_1_0_0_1_n_n.contr.Idx) :
    (dot_S2560x64_S64x128_S2560x128_1_0_0_1_n_n.rhsIdx i q 0).val = (q ⟨0, by decide⟩).val :=
  dot_S2560x64_S64x128_S2560x128_1_0_0_1_n_n.rhsIdx_val_of_single rfl i q
theorem rhs64_1 (i : S2560x128.Idx) (q : dot_S2560x64_S64x128_S2560x128_1_0_0_1_n_n.contr.Idx) :
    (dot_S2560x64_S64x128_S2560x128_1_0_0_1_n_n.rhsIdx i q 1).val = (i 1).val := by
  unfold DotDims.rhsIdx
  rw [dif_neg (show ¬(1 : Fin S64x128.rank) ∈ dot_S2560x64_S64x128_S2560x128_1_0_0_1_n_n.rhsBatch by decide), dif_pos (show (1 : Fin S64x128.rank) ∈ dot_S2560x64_S64x128_S2560x128_1_0_0_1_n_n.rhsNonContracting by decide)]
  rfl

/-- The matrix unit's product into a zero accumulator, at row `r` and column `n`: the sum over the 64 contracted
    positions of the left block's row `r` times the right block's column `n`. -/
theorem matmul64_apply {φ₁ φ₂ : FTy} (a : FVec Ideal S2560x64 φ₁) (w : FVec Ideal S64x128 φ₂) (r : Fin 2560) (n : Fin 128) :
    matmul dot_S2560x64_S64x128_S2560x128_1_0_0_1_n_n none a w (constant (F := Ideal) S2560x128 .f32 0x00000000#32) (ix2 r n)
      = ∑ k : Fin 64, a (ix2 r k) * w (ix2 k n) := by
  show FloatOps.matmul dot_S2560x64_S64x128_S2560x128_1_0_0_1_n_n none a w (constant (F := Ideal) S2560x128 .f32 0x00000000#32) (ix2 r n) = _
  rw [Ideal.matmul_constant_zero_apply, ← Equiv.sum_comp (ValueIdx.contrEquiv1 dot_S2560x64_S64x128_S2560x128_1_0_0_1_n_n 64 rfl rfl).symm]
  refine Finset.sum_congr rfl fun k _ => ?_
  have hk := ValueIdx.contrEquiv1_symm_val dot_S2560x64_S64x128_S2560x128_1_0_0_1_n_n 64 rfl rfl k
  have el : dot_S2560x64_S64x128_S2560x128_1_0_0_1_n_n.lhsIdx (ix2 r n) ((ValueIdx.contrEquiv1 dot_S2560x64_S64x128_S2560x128_1_0_0_1_n_n 64 rfl rfl).symm k) = ix2 r k := funext fun c => Fin.ext (by
    match c with
    | ⟨0, _⟩ => exact lhs64_0 _ _
    | ⟨1, _⟩ => exact (lhs64_1 _ _).trans hk)
  have er : dot_S2560x64_S64x128_S2560x128_1_0_0_1_n_n.rhsIdx (ix2 r n) ((ValueIdx.contrEquiv1 dot_S2560x64_S64x128_S2560x128_1_0_0_1_n_n 64 rfl rfl).symm k) = ix2 k n := funext fun c => Fin.ext (by
    match c with
    | ⟨0, _⟩ => exact (rhs64_0 _ _).trans hk
    | ⟨1, _⟩ => exact rhs64_1 _ _)
  rw [el, er]

/-! ### The contraction of a [2560, 128] block with a [128, 128] block -/

theorem lhs128_0 (i : S2560x128.Idx) (q : dot_S2560x128_S128x128_S2560x128_1_0_0_1_n_n.contr.Idx) :
    (dot_S2560x128_S128x128_S2560x128_1_0_0_1_n_n.lhsIdx i q 0).val = (i 0).val := by
  unfold DotDims.lhsIdx
  rw [dif_neg (show ¬(0 : Fin S2560x128.rank) ∈ dot_S2560x128_S128x128_S2560x128_1_0_0_1_n_n.lhsBatch by decide), dif_pos (show (0 : Fin S2560x128.rank) ∈ dot_S2560x128_S128x128_S2560x128_1_0_0_1_n_n.lhsNonContracting by decide)]
  rfl
theorem lhs128_1 (i : S2560x128.Idx) (q : dot_S2560x128_S128x128_S2560x128_1_0_0_1_n_n.contr.Idx) :
    (dot_S2560x128_S128x128_S2560x128_1_0_0_1_n_n.lhsIdx i q 1).val = (q ⟨0, by decide⟩).val :=
  dot_S2560x128_S128x128_S2560x128_1_0_0_1_n_n.lhsIdx_val_of_single rfl i q
theorem rhs128_0 (i : S2560x128.Idx) (q : dot_S2560x128_S128x128_S2560x128_1_0_0_1_n_n.contr.Idx) :
    (dot_S2560x128_S128x128_S2560x128_1_0_0_1_n_n.rhsIdx i q 0).val = (q ⟨0, by decide⟩).val :=
  dot_S2560x128_S128x128_S2560x128_1_0_0_1_n_n.rhsIdx_val_of_single rfl i q
theorem rhs128_1 (i : S2560x128.Idx) (q : dot_S2560x128_S128x128_S2560x128_1_0_0_1_n_n.contr.Idx) :
    (dot_S2560x128_S128x128_S2560x128_1_0_0_1_n_n.rhsIdx i q 1).val = (i 1).val := by
  unfold DotDims.rhsIdx
  rw [dif_neg (show ¬(1 : Fin S128x128.rank) ∈ dot_S2560x128_S128x128_S2560x128_1_0_0_1_n_n.rhsBatch by decide), dif_pos (show (1 : Fin S128x128.rank) ∈ dot_S2560x128_S128x128_S2560x128_1_0_0_1_n_n.rhsNonContracting by decide)]
  rfl

/-- The matrix unit's product into a zero accumulator, at row `r` and column `n`: the sum over the 128 contracted
    positions of the left block's row `r` times the right block's column `n`. -/
theorem matmul128_apply {φ₁ φ₂ : FTy} (a : FVec Ideal S2560x128 φ₁) (w : FVec Ideal S128x128 φ₂) (r : Fin 2560) (n : Fin 128) :
    matmul dot_S2560x128_S128x128_S2560x128_1_0_0_1_n_n none a w (constant (F := Ideal) S2560x128 .f32 0x00000000#32) (ix2 r n)
      = ∑ k : Fin 128, a (ix2 r k) * w (ix2 k n) := by
  show FloatOps.matmul dot_S2560x128_S128x128_S2560x128_1_0_0_1_n_n none a w (constant (F := Ideal) S2560x128 .f32 0x00000000#32) (ix2 r n) = _
  rw [Ideal.matmul_constant_zero_apply, ← Equiv.sum_comp (ValueIdx.contrEquiv1 dot_S2560x128_S128x128_S2560x128_1_0_0_1_n_n 128 rfl rfl).symm]
  refine Finset.sum_congr rfl fun k _ => ?_
  have hk := ValueIdx.contrEquiv1_symm_val dot_S2560x128_S128x128_S2560x128_1_0_0_1_n_n 128 rfl rfl k
  have el : dot_S2560x128_S128x128_S2560x128_1_0_0_1_n_n.lhsIdx (ix2 r n) ((ValueIdx.contrEquiv1 dot_S2560x128_S128x128_S2560x128_1_0_0_1_n_n 128 rfl rfl).symm k) = ix2 r k := funext fun c => Fin.ext (by
    match c with
    | ⟨0, _⟩ => exact lhs128_0 _ _
    | ⟨1, _⟩ => exact (lhs128_1 _ _).trans hk)
  have er : dot_S2560x128_S128x128_S2560x128_1_0_0_1_n_n.rhsIdx (ix2 r n) ((ValueIdx.contrEquiv1 dot_S2560x128_S128x128_S2560x128_1_0_0_1_n_n 128 rfl rfl).symm k) = ix2 k n := funext fun c => Fin.ext (by
    match c with
    | ⟨0, _⟩ => exact (rhs128_0 _ _).trans hk
    | ⟨1, _⟩ => exact rhs128_1 _ _)
  rw [el, er]

/-! ### The two layers -/

/-- The logistic function applied to a block acts entry by entry. -/
theorem logistic_apply {s : Shape} {φ : FTy} (a : FVec Ideal s φ) (i : s.Idx) : logistic a i = Ideal.logistic (a i) := rfl

/-- The first layer before its activation, as the block the body computes: the three partial products into zero
    accumulators, added, plus the bias row repeated down the block. (Rounding an operand to a narrower format is the
    identity on the extended reals, and a reshaping to the same shape moves nothing.) -/
def lay1 (P1 P2 : Vec Ideal S2560x64 .f32) (P0 : Vec Ideal S2560x128 .f32) (P3 P4 : Vec Ideal S64x128 .f32) (P5 : Vec Ideal S128x128 .f32) (P6 : Vec Ideal S1x128 .f32) : FVec Ideal S2560x128 .f32 :=
  (addf (addf (addf (matmul dot_S2560x64_S64x128_S2560x128_1_0_0_1_n_n none (truncf .bf16 (shapeCast S2560x64 P1 shapeCasts_S2560x64_S2560x64) bitsLt_bf16_f32) (truncf .bf16 (shapeCast S64x128 P3 shapeCasts_S64x128_S64x128) bitsLt_bf16_f32) (constant (F := Ideal) S2560x128 .f32 0x00000000#32)) (matmul dot_S2560x64_S64x128_S2560x128_1_0_0_1_n_n none (truncf .bf16 (shapeCast S2560x64 P2 shapeCasts_S2560x64_S2560x64) bitsLt_bf16_f32) (truncf .bf16 (shapeCast S64x128 P4 shapeCasts_S64x128_S64x128) bitsLt_bf16_f32) (constant (F := Ideal) S2560x128 .f32 0x00000000#32))) (matmul dot_S2560x128_S128x128_S2560x128_1_0_0_1_n_n none (truncf .bf16 P0 bitsLt_bf16_f32) (truncf .bf16 (shapeCast S128x128 P5 shapeCasts_S128x128_S128x128) bitsLt_bf16_f32) (constant (F := Ideal) S2560x128 .f32 0x00000000#32))) (broadcastTo S2560x128 (shapeCast S1x128 P6 shapeCasts_S1x128_S1x128) broadcasts_S1x128_S2560x128))

/-- Row `r`, column `n` of that block is the specification's first layer of the three rows `r`. -/
theorem lay1_apply (P1 P2 : Vec Ideal S2560x64 .f32) (P0 : Vec Ideal S2560x128 .f32) (P3 P4 : Vec Ideal S64x128 .f32) (P5 : Vec Ideal S128x128 .f32) (P6 : Vec Ideal S1x128 .f32) (r : Fin 2560) (n : Fin 128) :
    lay1 P1 P2 P0 P3 P4 P5 P6 (ix2 r n) = (Cert.EdgeRow.proj (fun k => P1 (ix2 r k)) (fun k => P2 (ix2 r k)) (fun k => P0 (ix2 r k)) (fun k n' => P3 (ix2 k n')) (fun k n' => P4 (ix2 k n')) (fun k n' => P5 (ix2 k n')) (fun n' => P6 (ix2 (0 : Fin 1) n'))) n := by
  unfold lay1 Cert.EdgeRow.proj
  rw [addf_apply, addf_apply, addf_apply, matmul64_apply, matmul64_apply, matmul128_apply,
    broadcastTo_1b_ab_apply, shapeCast_self, shapeCast_self, shapeCast_self, shapeCast_self, shapeCast_self,
    shapeCast_self]
  rfl

/-- The second layer before its activation is one more product, of the activated first layer with the second weight
    block, plus its bias row. -/
theorem pay2_eq (P1 P2 : Vec Ideal S2560x64 .f32) (P0 : Vec Ideal S2560x128 .f32) (P3 P4 : Vec Ideal S64x128 .f32) (P5 : Vec Ideal S128x128 .f32) (P6 : Vec Ideal S1x128 .f32) (P7 : Vec Ideal S128x128 .f32) (P8 : Vec Ideal S1x128 .f32) :
    k0_pay2 (F := Ideal) P1 P2 P0 P3 P4 P5 P6 P7 P8
      = addf (matmul dot_S2560x128_S128x128_S2560x128_1_0_0_1_n_n none (truncf .bf16 (mulf (lay1 P1 P2 P0 P3 P4 P5 P6) (logistic (lay1 P1 P2 P0 P3 P4 P5 P6))) bitsLt_bf16_f32) (truncf .bf16 P7 bitsLt_bf16_f32) (constant (F := Ideal) S2560x128 .f32 0x00000000#32)) (broadcastTo S2560x128 (shapeCast S1x128 P8 shapeCasts_S1x128_S1x128) broadcasts_S1x128_S2560x128) := rfl

/-- Row `r`, column `n` of the second layer before its activation is the specification's. -/
theorem pay2_apply (P1 P2 : Vec Ideal S2560x64 .f32) (P0 : Vec Ideal S2560x128 .f32) (P3 P4 : Vec Ideal S64x128 .f32) (P5 : Vec Ideal S128x128 .f32) (P6 : Vec Ideal S1x128 .f32) (P7 : Vec Ideal S128x128 .f32) (P8 : Vec Ideal S1x128 .f32) (r : Fin 2560) (n : Fin 128) :
    k0_pay2 (F := Ideal) P1 P2 P0 P3 P4 P5 P6 P7 P8 (ix2 r n)
      = Cert.EdgeRow.layer2 (Cert.EdgeRow.proj (fun k => P1 (ix2 r k)) (fun k => P2 (ix2 r k)) (fun k => P0 (ix2 r k)) (fun k n' => P3 (ix2 k n')) (fun k n' => P4 (ix2 k n')) (fun k n' => P5 (ix2 k n')) (fun n' => P6 (ix2 (0 : Fin 1) n'))) (fun k n' => P7 (ix2 k n')) (fun n' => P8 (ix2 (0 : Fin 1) n')) n := by
  rw [pay2_eq, addf_apply, matmul128_apply, broadcastTo_1b_ab_apply, shapeCast_self]
  unfold Cert.EdgeRow.layer2 Cert.EdgeRow.silu
  refine congrArg (· + P8 (ix2 (0 : Fin 1) n)) (Finset.sum_congr rfl fun k _ => ?_)
  rw [truncf_apply, truncf_apply, mulf_apply, logistic_apply, lay1_apply]

/-! ### Sums along a row, and a column repeated across the row -/

/-- The sum of a [2560, 128] block over its second axis, read at row `r`: the sum of the 128 entries of that row. -/
theorem rowSum_apply (v : FVec Ideal S2560x128 .f32) (hφ : FKind.Formats .f32) (hacc : (0x00000000#32 : BitVec FTy.f32.bits) = FKind.add.neutral .f32 hφ) (r : Fin 2560) :
    (multiReduction (F := Ideal) .add [1] S2560 v 0x00000000#32 reduces_S2560x128_S2560 hφ hacc) (ix1 r) = ∑ k : Fin 128, v (ix2 r k) := by
  refine (Ideal.multiReduction_add_single v 0x00000000#32 reduces_S2560x128_S2560 hφ hacc (ix1 r)).trans ?_
  show ∑ k : Fin 128, v (reduces_S2560x128_S2560.lift (ix1 r) k) = ∑ k : Fin 128, v (ix2 r k)
  refine Finset.sum_congr rfl fun k _ => congrArg v (funext fun c => Fin.ext ?_)
  match c with
  | ⟨0, _⟩ => rfl
  | ⟨1, _⟩ => rfl

/-- A column of 2560 numbers repeated across 128 columns reads, at row `r`, the column's entry `r`. -/
theorem colBroadcast_apply {α : Type} (v : S2560x1.Idx → α) (r : Fin 2560) (k : Fin 128) :
    broadcastTo S2560x128 v broadcasts_S2560x1_S2560x128 (ix2 r k) = v (ix2 r (0 : Fin 1)) := by
  refine broadcastTo_apply v _ (ix2 r k) (ix2 r (0 : Fin 1)) fun a => ?_
  match a with
  | ⟨0, _⟩ =>
    show r.val = if (2560 : Nat) = 1 then 0 else r.val
    rw [if_neg (by decide)]
  | ⟨1, _⟩ =>
    show (0 : Nat) = if (1 : Nat) = 1 then 0 else k.val
    rw [if_pos rfl]

/-- A list of 2560 numbers stood up as a column reads, at row `r`, the list's entry `r`. -/
theorem colCast_apply {α : Type} (v : S2560.Idx → α) (r : Fin 2560) :
    shapeCast S2560x1 v shapeCasts_S2560_S2560x1 (ix2 r (0 : Fin 1)) = v (ix1 r) := by
  refine shapeCast_apply v _ (ix2 r (0 : Fin 1)) (ix1 r) ?_
  rw [Shape.rowMajor_val_one, Shape.rowMajor_val_two]
  show r.val = r.val * 1 + 0
  omega

/-! ### The normalisation of a row -/

/-- For any block `Yv` whose row `r` is `y`: centring by the row's mean, scaling by the reciprocal square root of the
    mean square deviation plus the small constant, multiplying by `γ` and adding `β`, as the body does it with whole
    blocks, is the specification's normalisation of `y` at column `n`. -/
theorem norm_apply (Yv : FVec Ideal S2560x128 .f32) (g b : Vec Ideal S1x128 .f32) (hφ : FKind.Formats .f32) (hacc : (0x00000000#32 : BitVec FTy.f32.bits) = FKind.add.neutral .f32 hφ)
    (r : Fin 2560) (n : Fin 128) (y : Fin 128 → EReal) (hy : ∀ k, Yv (ix2 r k) = y k) :
    FloatOps.addf (F := Ideal) (φ := .f32) (FloatOps.mulf (FloatOps.mulf (FloatOps.subf (Yv (ix2 r n)) (FloatOps.divf ((multiReduction (F := Ideal) .add [1] S2560 Yv 0x00000000#32 reduces_S2560x128_S2560 hφ hacc) (ix1 r)) (Scalar.ofBits (F := Ideal) .f32 0x43000000#32))) (FloatOps.rsqrt (FloatOps.addf (FloatOps.divf ((multiReduction (F := Ideal) .add [1] S2560 (mulf (subf Yv (broadcastTo S2560x128 (divf (shapeCast S2560x1 (multiReduction (F := Ideal) .add [1] S2560 Yv 0x00000000#32 reduces_S2560x128_S2560 hφ hacc) shapeCasts_S2560_S2560x1) (broadcast S2560x1 (Scalar.ofBits (F := Ideal) .f32 0x43000000#32))) broadcasts_S2560x1_S2560x128)) (subf Yv (broadcastTo S2560x128 (divf (shapeCast S2560x1 (multiReduction (F := Ideal) .add [1] S2560 Yv 0x00000000#32 reduces_S2560x128_S2560 hφ hacc) shapeCasts_S2560_S2560x1) (broadcast S2560x1 (Scalar.ofBits (F := Ideal) .f32 0x43000000#32))) broadcasts_S2560x1_S2560x128))) 0x00000000#32 reduces_S2560x128_S2560 hφ hacc) (ix1 r)) (Scalar.ofBits (F := Ideal) .f32 0x43000000#32)) (Scalar.ofBits (F := Ideal) .f32 0x3727C5AC#32)))) (g (ix2 (0 : Fin 1) n))) (b (ix2 (0 : Fin 1) n))
      = Cert.EdgeRow.lnorm y (fun n' => g (ix2 (0 : Fin 1) n')) (fun n' => b (ix2 (0 : Fin 1) n')) n := by
  have hs1 : (multiReduction (F := Ideal) .add [1] S2560 Yv 0x00000000#32 reduces_S2560x128_S2560 hφ hacc) (ix1 r) = ∑ k, y k :=
    (rowSum_apply Yv hφ hacc r).trans (Finset.sum_congr rfl fun k _ => hy k)
  have hdev : ∀ k, (subf Yv (broadcastTo S2560x128 (divf (shapeCast S2560x1 (multiReduction (F := Ideal) .add [1] S2560 Yv 0x00000000#32 reduces_S2560x128_S2560 hφ hacc) shapeCasts_S2560_S2560x1) (broadcast S2560x1 (Scalar.ofBits (F := Ideal) .f32 0x43000000#32))) broadcasts_S2560x1_S2560x128)) (ix2 r k) = y k - Cert.EdgeRow.mean y := fun k => by
    rw [subf_apply, colBroadcast_apply, divf_apply, colCast_apply, broadcast_apply, hs1, hy k]
    rfl
  have hs2 : (multiReduction (F := Ideal) .add [1] S2560 (mulf (subf Yv (broadcastTo S2560x128 (divf (shapeCast S2560x1 (multiReduction (F := Ideal) .add [1] S2560 Yv 0x00000000#32 reduces_S2560x128_S2560 hφ hacc) shapeCasts_S2560_S2560x1) (broadcast S2560x1 (Scalar.ofBits (F := Ideal) .f32 0x43000000#32))) broadcasts_S2560x1_S2560x128)) (subf Yv (broadcastTo S2560x128 (divf (shapeCast S2560x1 (multiReduction (F := Ideal) .add [1] S2560 Yv 0x00000000#32 reduces_S2560x128_S2560 hφ hacc) shapeCasts_S2560_S2560x1) (broadcast S2560x1 (Scalar.ofBits (F := Ideal) .f32 0x43000000#32))) broadcasts_S2560x1_S2560x128))) 0x00000000#32 reduces_S2560x128_S2560 hφ hacc) (ix1 r) = ∑ k, (y k - Cert.EdgeRow.mean y) * (y k - Cert.EdgeRow.mean y) :=
    (rowSum_apply _ hφ hacc r).trans (Finset.sum_congr rfl fun k _ => by rw [mulf_apply, hdev k])
  rw [hs1, hs2, hy n]
  rfl

/-! ### The block the body stores -/

/-- The edge block plus the activated second layer: row `r`, column `k` is the specification's row before its
    normalisation. -/
theorem resid_apply (P0 : Vec Ideal S2560x128 .f32) (P1 P2 : Vec Ideal S2560x64 .f32) (P3 P4 : Vec Ideal S64x128 .f32)
    (P5 : Vec Ideal S128x128 .f32) (P6 : Vec Ideal S1x128 .f32) (P7 : Vec Ideal S128x128 .f32) (P8 : Vec Ideal S1x128 .f32)
    (r : Fin 2560) (k : Fin 128) :
    (addf P0 (mulf (k0_pay2 (F := Ideal) P1 P2 P0 P3 P4 P5 P6 P7 P8) (logistic (k0_pay2 (F := Ideal) P1 P2 P0 P3 P4 P5 P6 P7 P8)))) (ix2 r k)
      = Cert.EdgeRow.resid (fun k => P0 (ix2 r k)) (Cert.EdgeRow.layer2 (Cert.EdgeRow.proj (fun k => P1 (ix2 r k)) (fun k => P2 (ix2 r k)) (fun k => P0 (ix2 r k)) (fun k n' => P3 (ix2 k n')) (fun k n' => P4 (ix2 k n')) (fun k n' => P5 (ix2 k n')) (fun n' => P6 (ix2 (0 : Fin 1) n'))) (fun k n' => P7 (ix2 k n')) (fun n' => P8 (ix2 (0 : Fin 1) n'))) k := by
  rw [addf_apply, mulf_apply, logistic_apply, pay2_apply]
  rfl

/-- What the body leaves in its output block at row `r`, column `n` is the specification's updated edge row, of rows
    `r` of the three input blocks and of the parameter blocks, at column `n`. -/
theorem E11_apply (P0 : Vec Ideal S2560x128 .f32) (P1 P2 : Vec Ideal S2560x64 .f32) (P3 P4 : Vec Ideal S64x128 .f32)
    (P5 : Vec Ideal S128x128 .f32) (P6 : Vec Ideal S1x128 .f32) (P7 : Vec Ideal S128x128 .f32)
    (P8 P9 P10 : Vec Ideal S1x128 .f32) (r : Fin 2560) (n : Fin 128) :
    Cert.KernelIdeal.ValueP.E11 (F := Ideal) P0 P1 P2 P3 P4 P5 P6 P7 P8 P9 P10 (ix2 r n)
      = Cert.EdgeRow.rowOut (fun k => P1 (ix2 r k)) (fun k => P2 (ix2 r k)) (fun k => P0 (ix2 r k))
          (fun k n' => P3 (ix2 k n')) (fun k n' => P4 (ix2 k n')) (fun k n' => P5 (ix2 k n'))
          (fun n' => P6 (ix2 (0 : Fin 1) n')) (fun k n' => P7 (ix2 k n')) (fun n' => P8 (ix2 (0 : Fin 1) n'))
          (fun n' => P9 (ix2 (0 : Fin 1) n')) (fun n' => P10 (ix2 (0 : Fin 1) n')) n := by
  have h0 : ValueP.ix11_0 (ix2 r n) = ix2 r n := funext fun a => by
    match a with | ⟨0, _⟩ => rfl | ⟨1, _⟩ => rfl
  have h1 : ValueP.ix11_1 (ix2 r n) = ix2 r n := funext fun a => by
    match a with | ⟨0, _⟩ => rfl | ⟨1, _⟩ => rfl
  have h2 : ValueP.ix11_2 (ix2 r n) = ix2 r n := funext fun a => by
    match a with | ⟨0, _⟩ => rfl | ⟨1, _⟩ => rfl
  have h3 : ValueP.ix11_3 (ix2 r n) = ix1 r := funext fun a => by
    match a with | ⟨0, _⟩ => rfl
  have h4 : ValueP.ix11_4 (ix2 r n) = ix1 r := funext fun a => by
    match a with | ⟨0, _⟩ => rfl
  have h5 : ValueP.ix11_5 (ix2 r n) = ix2 (0 : Fin 1) n := funext fun a => by
    match a with | ⟨0, _⟩ => rfl | ⟨1, _⟩ => rfl
  have h6 : ValueP.ix11_6 (ix2 r n) = ix2 (0 : Fin 1) n := funext fun a => by
    match a with | ⟨0, _⟩ => rfl | ⟨1, _⟩ => rfl
  unfold ValueP.E11
  rw [h0, h1, h2, h3, h4, h5, h6]
  exact norm_apply (addf P0 (mulf (k0_pay2 (F := Ideal) P1 P2 P0 P3 P4 P5 P6 P7 P8) (logistic (k0_pay2 (F := Ideal) P1 P2 P0 P3 P4 P5 P6 P7 P8)))) P9 P10 _ _ r n _
    (fun k => resid_apply P0 P1 P2 P3 P4 P5 P6 P7 P8 r k)

end Cert.KernelIdeal.EdgeRowValue

end
-- ==== Proof.LibTakeMask.lean ====
/-
  A TABLE LOOK-UP THAT FILLS OUT-OF-RANGE ROWS, READ BACK WHEN NO ROW IS OUT OF RANGE.

  \`jnp.take(table, idx, axis = 0, mode = "fill")\` over a table of \`L\` rows prints as this chain of StableHLO operations
  on 32-bit two's-complement row numbers:

    * WRAP: a negative row number has \`L\` added to it (\`select (idx < 0) (idx + L) idx\`), numpy's reading of a negative
      index as counted from the end;
    * GATHER: the table's rows at the wrapped numbers (StableHLO's gather, which clamps a start index into the table);
    * MASK: a row of the result is kept where its wrapped number lies in \`[0, L − 1]\`, and is replaced by a fill value
      (a quiet NaN for a float table) elsewhere. The test is printed on the wrapped numbers laid out as a column
      \`[n, 1]\`: \`0 ≤ w\` and \`w ≤ L − 1\`, their \`and\`, an \`and\`-reduction across the column's one-element axis, the
      resulting bit of each row broadcast along the row, and a \`select\` between the gathered array and the fill.

  When every row number lies in \`[−L, L)\` nothing is out of range: the wrapped number lies in \`[0, L − 1]\`
  (\`wrapped_range\`: the sum \`idx + L\` of 32-bit words does not wrap around for \`−L ≤ idx < 0\`), both comparisons hold at
  every row, the \`and\`-reduction of ones from the initial value one is one, so the mask is all ones (\`mask_ones\`), and the
  final \`select\` is the gathered array itself (\`masked_take_eq\`). The gathered array and the fill stay opaque (any two
  arrays of the result's shape): nothing about the gather is used.

  The three theorems are stated at the literal shapes of one instance, \`L = 10000\` rows and \`n = 640000\` row numbers of
  \`64\` elements each, with the operations nested exactly as printed, so that a goal which is that nest closes by
  \`exact\`. The lemmas they rest on (\`wrap_word_range\`, \`reduce_andi_ones\`, \`select_ones\`) hold at any length and shape.
-/
import Idealize.ShloMosaic.PureOps
import Idealize.ShloMosaic.Lib.ValueIdx
import Idealize.ShloMosaic.Lib.StableHlo.Predicate
import Idealize.ShloMosaic.Lib.ReduceAll

namespace Cert.TakeMask

open Idealize.ShloMosaic

/-- The scalar shape. -/
abbrev S_ : Shape := ⟨0, ![]⟩
/-- A vector of one element. -/
abbrev S1 : Shape := ⟨1, ![1]⟩
/-- A one-by-one matrix. -/
abbrev S1x1 : Shape := ⟨2, ![1, 1]⟩
/-- The row numbers: a vector of 640000 words. -/
abbrev S640000 : Shape := ⟨1, ![640000]⟩
/-- The row numbers laid out as a column. -/
abbrev S640000x1 : Shape := ⟨2, ![640000, 1]⟩
/-- The result: one row of 64 elements for each row number. -/
abbrev S640000x64 : Shape := ⟨2, ![640000, 64]⟩

/-! ## Words, a reduction of ones, a select on ones: at any length and shape -/

/-- WRAPPING A ROW NUMBER. For a table of \`L\` rows (\`L < 2³⁰\`) and a 32-bit word \`x\` that reads, signed, as a
    number in \`[−L, L)\`: the word "\`x + L\` if \`x < 0\`, else \`x\`" reads as a number in \`[0, L − 1]\`. On the negative
    branch \`x + L\` lies in \`[0, L)\`, far inside the signed 32-bit range, so the word sum does not wrap around and reads
    as the integer sum. -/
theorem wrap_word_range (L : Nat) (hL : L < 2 ^ 30) (x : BitVec 32) (hlo : -(L : Int) ≤ x.toInt) (hhi : x.toInt < L) :
    0 ≤ (Scalar.select (IntOp.cmpi .slt x 0#32) (IntOp.addi x (BitVec.ofNat 32 L)) x).toInt ∧
      (Scalar.select (IntOp.cmpi .slt x 0#32) (IntOp.addi x (BitVec.ofNat 32 L)) x).toInt ≤ (L : Int) - 1 := by
  have h0 : (0#32 : BitVec 32).toInt = 0 := by decide
  have hLw : (BitVec.ofNat 32 L).toInt = (L : Int) := StableHlo.Predicate.toInt_ofNat_small L (by omega)
  rcases BitVec.eq_zero_or_eq_one (IntOp.cmpi .slt x 0#32) with hc | hc
  · -- the comparison fails: \`x\` is nonnegative and is kept
    have hx : ¬x.toInt < 0 := fun h => by
      have h1 : IntOp.cmpi .slt x 0#32 = 1#1 := IntOp.cmpi_slt.2 (by rw [h0]; exact h)
      rw [hc] at h1; exact absurd h1 (by decide)
    rw [hc, ValueIdx.select_zero]
    omega
  · -- the comparison holds: \`x\` is negative and \`L\` is added, without wrap-around
    have hx : x.toInt < 0 := by have := IntOp.cmpi_slt.1 hc; rwa [h0] at this
    have hsum : (IntOp.addi x (BitVec.ofNat 32 L)).toInt = x.toInt + (L : Int) := by
      rw [IntOp.addi, BitVec.toInt_add, hLw]
      exact Int.bmod_eq_of_le (by omega) (by omega)
    rw [hc, ValueIdx.select_one, hsum]
    omega

/-- AN \`and\`-REDUCTION OF ONES. A \`stablehlo.reduce\` by \`and\` whose operand is one at every index and whose initial
    value is one is one at every result index: the fold of \`and\` from 1 over ones never leaves 1. (The converse reading,
    from a result that is one back to the operand's elements, is the library's \`Host.reduce_andi_eq_one\`.) -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-- A \`select\` whose condition is one everywhere is its first operand. -/
theorem select_ones {s : Shape} {α : Type} (a b : s.Idx → α) : select (fun _ => 1#1 : IVec s 1) a b = a :=
  funext fun _ => ValueIdx.select_one _ _

/-! ## The printed chain at \`L = 10000\`, \`n = 640000\`, rows of 64 elements -/

section Chain
variable {F : FTy → Type} [FloatOps F]

/-- (1) THE WRAPPED ROW NUMBER IS IN RANGE. \`idx\` are the row numbers as printed; the term below is the program's
    wrapped number: compare with a broadcast 0, add a broadcast 10000, select. If every row number reads, signed, in
    \`[−10000, 10000)\`, every wrapped number reads in \`[0, 9999]\`. -/
theorem wrapped_range (hb_a : S_.BroadcastsInDim S640000 (![] : Fin 0 → Fin S640000.rank)) (idx : IVec S640000 32)
    (hidx : ∀ i : S640000.Idx, -10000 ≤ (idx i).toInt ∧ (idx i).toInt < 10000) :
    ∀ i : S640000.Idx,
      0 ≤ ((select (cmpi .slt idx (broadcastInDim S640000 ![] hb_a (constantI S_ 32 0#32)))
            (addi idx (broadcastInDim S640000 ![] hb_a (constantI S_ 32 10000#32))) idx) i).toInt ∧
        ((select (cmpi .slt idx (broadcastInDim S640000 ![] hb_a (constantI S_ 32 0#32)))
            (addi idx (broadcastInDim S640000 ![] hb_a (constantI S_ 32 10000#32))) idx) i).toInt ≤ 9999 := by
  intro i
  -- read at \`i\`, each broadcast constant is its word, and the nest is the word-level wrap of \`idx i\`
  have h := wrap_word_range 10000 (by decide) (idx i) (by have := (hidx i).1; omega) (by have := (hidx i).2; omega)
  refine ⟨h.1, ?_⟩
  have h2 := h.2
  show (Scalar.select (IntOp.cmpi .slt (idx i) 0#32) (IntOp.addi (idx i) (BitVec.ofNat 32 10000)) (idx i)).toInt ≤ 9999
  omega

/-- (2) THE IN-BOUNDS MASK IS ALL ONES. The term below is the program's mask over the result: the wrapped numbers as
    a column, \`0 ≤ ·\` and \`· ≤ 9999\` against broadcast constants, their \`and\`, the \`and\`-reduction across the column's
    second axis from the constant one, and that bit broadcast along each row of 64. If every row number reads in
    \`[−10000, 10000)\` it is one at every index: each column entry is a wrapped number, in range by \`wrapped_range\`. -/
theorem mask_ones (hb_a : S_.BroadcastsInDim S640000 (![] : Fin 0 → Fin S640000.rank))
    (hb_b : S640000.BroadcastsInDim S640000x1 (![0] : Fin 1 → Fin S640000x1.rank))
    (hb_c : S_.BroadcastsInDim S640000x1 (![] : Fin 0 → Fin S640000x1.rank))
    (hb_d : S1.BroadcastsInDim S1x1 (![1] : Fin 1 → Fin S1x1.rank))
    (hb_e : S1x1.BroadcastsInDim S640000x1 (![0, 1] : Fin 2 → Fin S640000x1.rank))
    (hb_f : S640000.BroadcastsInDim S640000x64 (![0] : Fin 1 → Fin S640000x64.rank))
    (hred : S640000x1.ReducesTo [1] S640000) (hpos : 0 < S_.numel) (idx : IVec S640000 32)
    (hidx : ∀ i : S640000.Idx, -10000 ≤ (idx i).toInt ∧ (idx i).toInt < 10000) :
    broadcastInDim S640000x64 ![0] hb_f
        (Host.reduce IntOp.andi
          (andi
            (cmpi .sge
              (broadcastInDim S640000x1 ![0] hb_b
                (select (cmpi .slt idx (broadcastInDim S640000 ![] hb_a (constantI S_ 32 0#32)))
                  (addi idx (broadcastInDim S640000 ![] hb_a (constantI S_ 32 10000#32))) idx))
              (broadcastInDim S640000x1 ![] hb_c (constantI S_ 32 0#32)))
            (cmpi .sle
              (broadcastInDim S640000x1 ![0] hb_b
                (select (cmpi .slt idx (broadcastInDim S640000 ![] hb_a (constantI S_ 32 0#32)))
                  (addi idx (broadcastInDim S640000 ![] hb_a (constantI S_ 32 10000#32))) idx))
              (broadcastInDim S640000x1 ![0, 1] hb_e (broadcastInDim S1x1 ![1] hb_d (constantI S1 32 9999#32)))))
          (constantI S_ 1 1#1) hred hpos)
      = fun _ => 1#1 := by
  funext j
  -- a broadcast reads its operand at some index; the reduction is one at every index
  refine reduce_andi_ones _ _ hred hpos (fun k => ?_) (fun _ => rfl) _
  -- at a column index \`k\` the two comparisons are of one wrapped number, read at the index \`k\` names, with 0 and 9999
  obtain ⟨h0, h1⟩ := wrapped_range hb_a idx hidx
    (fun a => if h1 : S640000.size a = 1 then ⟨0, by omega⟩ else ⟨(k ((![0] : Fin 1 → Fin S640000x1.rank) a)).val, by
      rcases hb_b.2 a with h2 | h2
      · exact absurd h2 h1
      · rw [h2]; exact (k _).isLt⟩)
  refine IntOp.andi_eq_one.2 ⟨IntOp.cmpi_sge.2 ?_, IntOp.cmpi_sle.2 ?_⟩
  · show (0#32 : BitVec 32).toInt ≤ _
    rw [show (0#32 : BitVec 32).toInt = 0 from by decide]
    exact h0
  · show _ ≤ (9999#32 : BitVec 32).toInt
    rw [show (9999#32 : BitVec 32).toInt = 9999 from by decide]
    exact h1

/-- (3) THE MASKED LOOK-UP IS THE BARE GATHER. \`G\` stands for the gathered array and \`N\` for the fill (any two arrays of
    the result's shape). If every row number reads in \`[−10000, 10000)\`, the final \`select\` on the in-bounds mask
    returns \`G\`: no row is filled. -/
theorem masked_take_eq (hb_a : S_.BroadcastsInDim S640000 (![] : Fin 0 → Fin S640000.rank))
    (hb_b : S640000.BroadcastsInDim S640000x1 (![0] : Fin 1 → Fin S640000x1.rank))
    (hb_c : S_.BroadcastsInDim S640000x1 (![] : Fin 0 → Fin S640000x1.rank))
    (hb_d : S1.BroadcastsInDim S1x1 (![1] : Fin 1 → Fin S1x1.rank))
    (hb_e : S1x1.BroadcastsInDim S640000x1 (![0, 1] : Fin 2 → Fin S640000x1.rank))
    (hb_f : S640000.BroadcastsInDim S640000x64 (![0] : Fin 1 → Fin S640000x64.rank))
    (hred : S640000x1.ReducesTo [1] S640000) (hpos : 0 < S_.numel) (idx : IVec S640000 32)
    (hidx : ∀ i : S640000.Idx, -10000 ≤ (idx i).toInt ∧ (idx i).toInt < 10000)
    (G N : FVec F S640000x64 .f32) :
    select
        (broadcastInDim S640000x64 ![0] hb_f
          (Host.reduce IntOp.andi
            (andi
              (cmpi .sge
                (broadcastInDim S640000x1 ![0] hb_b
                  (select (cmpi .slt idx (broadcastInDim S640000 ![] hb_a (constantI S_ 32 0#32)))
                    (addi idx (broadcastInDim S640000 ![] hb_a (constantI S_ 32 10000#32))) idx))
                (broadcastInDim S640000x1 ![] hb_c (constantI S_ 32 0#32)))
              (cmpi .sle
                (broadcastInDim S640000x1 ![0] hb_b
                  (select (cmpi .slt idx (broadcastInDim S640000 ![] hb_a (constantI S_ 32 0#32)))
                    (addi idx (broadcastInDim S640000 ![] hb_a (constantI S_ 32 10000#32))) idx))
                (broadcastInDim S640000x1 ![0, 1] hb_e (broadcastInDim S1x1 ![1] hb_d (constantI S1 32 9999#32)))))
            (constantI S_ 1 1#1) hred hpos))
        G N
      = G := by
  rw [mask_ones hb_a hb_b hb_c hb_d hb_e hb_f hred hpos idx hidx]
  exact select_ones G N

end Chain

end Cert.TakeMask
-- ==== Proof.Prologue.lean ====
/-
  What the kernel's region finds in its operand arrays.

  Before the region the program prepares eleven arrays from its ten arguments. Two are gathered node tables: row `e`
  of the first is the row of the node table numbered by the first index input at edge `e`, a negative number counting
  from the end, and a number outside the table answered by a fill value; likewise the second from the second index
  input. With every number in `[-10000, 10000)` the in-range test holds at every edge, so each is the bare gather at
  the wrapped numbers. Three are the first layer's matrix cut into its rows 0–63, 64–127 and 128–255, and four are the
  128-vectors `b1`, `b2`, `γ`, `β` laid out as one row of 128.
-/
import proofs.«431330_j38311108280938_1_alg».proof.Proof.Gen.KernelIdeal.Frame
import proofs.«431330_j38311108280938_1_alg».proof.Proof.LibTakeMask
import Idealize.ShloMosaic.Lib.StableHlo.Run
import Idealize.ShloMosaic.Lib.ValueIdx
import Idealize.ShloMosaic.Lib.Pipeline.Value

set_option maxRecDepth 16384

noncomputable section

namespace Cert.KernelIdeal.Prologue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The row numbers as the gather takes them: a negative number has the table's length added, and the result is laid
    out as a column. -/
abbrev wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 10000#32))) idx)

/-- The index inputs of core `c` lie in the range in which a row number names a row of the table. -/
def InRange (c : Dev nD) : Prop :=
  (∀ i : S640000.Idx, -10000 ≤ ((m (c, Proc.tc.devRef main_arg2) : IVec S640000 32) i).toInt
      ∧ ((m (c, Proc.tc.devRef main_arg2) : IVec S640000 32) i).toInt < 10000)
  ∧ (∀ i : S640000.Idx, -10000 ≤ ((m (c, Proc.tc.devRef main_arg3) : IVec S640000 32) i).toInt
      ∧ ((m (c, Proc.tc.devRef main_arg3) : IVec S640000 32) i).toInt < 10000)

/-- The masked take, over any table and any row numbers in range: where every wrapped number is a row of the table
    the in-range test is passed at every edge, and the choice between the gathered row and the fill is the gathered row. -/
theorem take_term_eq (x0 : FVec Ideal S10000x64 .f32) (idx : IVec S640000 32)
    (h : ∀ i : S640000.Idx, -10000 ≤ (idx i).toInt ∧ (idx i).toInt < 10000) :
    select
        (broadcastInDim S640000x64 ![0] bcast_S640000_S640000x64_0
          (Host.reduce IntOp.andi
            (andi
              (cmpi .sge (wrapCol idx) (broadcastInDim S640000x1 ![] bcast_S_S640000x1 (constantI S_ 32 0#32)))
              (cmpi .sle (wrapCol idx)
                (broadcastInDim S640000x1 ![0, 1] bcast_S1x1_S640000x1_0_1
                  (broadcastInDim S1x1 ![1] bcast_S1_S1x1_1 (constantI S1 32 9999#32)))))
            (constantI S_ 1 1#1) reducesTo_S640000x1_S640000_d1 h_S_))
        (Host.gather gather_S10000x64_S640000x1_S640000x64_1_0_n_n_0_1_164 x0 (wrapCol idx))
        (broadcastInDim S640000x64 ![] bcast_S_S640000x64 (constant (F := Ideal) S_ .f32 0x7FC00000#32))
      = Host.gather gather_S10000x64_S640000x1_S640000x64_1_0_n_n_0_1_164 x0 (wrapCol idx) :=
  Cert.TakeMask.masked_take_eq (F := Ideal) bcast_S_S640000 bcast_S640000_S640000x1_0 bcast_S_S640000x1 bcast_S1_S1x1_1
    bcast_S1x1_S640000x1_0_1 bcast_S640000_S640000x64_0 reducesTo_S640000x1_S640000_d1 h_S_ idx h _ _

set_option maxHeartbeats 1000000 in
/-- The first gathered table is the gather at the wrapped first index input. -/
theorem V_src (c : Dev nD) (h : InRange m c) :
    (V m c main_v0 : S640000x64.Idx → EReal)
      = Host.gather gather_S10000x64_S640000x1_S640000x64_1_0_n_n_0_1_164 (m (c, Proc.tc.devRef main_arg0))
          (wrapCol (m (c, Proc.tc.devRef main_arg2))) := by
  dsimp only [V]
  simp only [hostOps0, hostOps0_1, hostOps0_2, List.flatten_cons, List.flatten_nil, List.append_nil, List.cons_append,
    List.nil_append]
  after_results
  simp only [TRef.ofBuf, TRef.toBuf, cast_eq]
  exact take_term_eq (m (c, Proc.tc.devRef main_arg0)) (m (c, Proc.tc.devRef main_arg2)) h.1

set_option maxHeartbeats 1000000 in
/-- The second gathered table is the gather at the wrapped second index input. -/
theorem V_dst (c : Dev nD) (h : InRange m c) :
    (V m c main_v1 : S640000x64.Idx → EReal)
      = Host.gather gather_S10000x64_S640000x1_S640000x64_1_0_n_n_0_1_164 (m (c, Proc.tc.devRef main_arg0))
          (wrapCol (m (c, Proc.tc.devRef main_arg3))) := by
  dsimp only [V]
  simp only [hostOps0, hostOps0_1, hostOps0_2, List.flatten_cons, List.flatten_nil, List.append_nil, List.cons_append,
    List.nil_append]
  after_results
  simp only [TRef.ofBuf, TRef.toBuf, cast_eq]
  exact take_term_eq (m (c, Proc.tc.devRef main_arg0)) (m (c, Proc.tc.devRef main_arg3)) h.2

/-- Rows 0–63 of the first layer's matrix. -/
theorem V_w1s (c : Dev nD) :
    (V m c main_v2 : S64x128.Idx → EReal)
      = extractStridedSlice S64x128 ![0, 0] (m (c, Proc.tc.devRef main_arg4)) slices_S256x128_S64x128_0_0 := by
  dsimp only [V]
  simp only [hostOps0, hostOps0_1, hostOps0_2, List.flatten_cons, List.flatten_nil, List.append_nil, List.cons_append,
    List.nil_append]
  after_results

/-- Rows 64–127 of the first layer's matrix. -/
theorem V_w1d (c : Dev nD) :
    (V m c main_v3 : S64x128.Idx → EReal)
      = extractStridedSlice S64x128 ![64, 0] (m (c, Proc.tc.devRef main_arg4)) slices_S256x128_S64x128_64_0 := by
  dsimp only [V]
  simp only [hostOps0, hostOps0_1, hostOps0_2, List.flatten_cons, List.flatten_nil, List.append_nil, List.cons_append,
    List.nil_append]
  after_results

/-- Rows 128–255 of the first layer's matrix. -/
theorem V_w1e (c : Dev nD) :
    (V m c main_v4 : S128x128.Idx → EReal)
      = extractStridedSlice S128x128 ![128, 0] (m (c, Proc.tc.devRef main_arg4)) slices_S256x128_S128x128_128_0 := by
  dsimp only [V]
  simp only [hostOps0, hostOps0_1, hostOps0_2, List.flatten_cons, List.flatten_nil, List.append_nil, List.cons_append,
    List.nil_append]
  after_results

/-- The first layer's bias as one row. -/
theorem V_b1 (c : Dev nD) :
    (V m c main_v5 : S1x128.Idx → EReal) = shapeCast S1x128 (m (c, Proc.tc.devRef main_arg5)) shapeCasts_S128_S1x128 := by
  dsimp only [V]
  simp only [hostOps0, hostOps0_1, hostOps0_2, List.flatten_cons, List.flatten_nil, List.append_nil, List.cons_append,
    List.nil_append]
  after_results
  rfl

/-- The second layer's bias as one row. -/
theorem V_b2 (c : Dev nD) :
    (V m c main_v6 : S1x128.Idx → EReal) = shapeCast S1x128 (m (c, Proc.tc.devRef main_arg7)) shapeCasts_S128_S1x128 := by
  dsimp only [V]
  simp only [hostOps0, hostOps0_1, hostOps0_2, List.flatten_cons, List.flatten_nil, List.append_nil, List.cons_append,
    List.nil_append]
  after_results
  rfl

/-- The normalisation's scale as one row. -/
theorem V_gamma (c : Dev nD) :
    (V m c main_v7 : S1x128.Idx → EReal) = shapeCast S1x128 (m (c, Proc.tc.devRef main_arg8)) shapeCasts_S128_S1x128 := by
  dsimp only [V]
  simp only [hostOps0, hostOps0_1, hostOps0_2, List.flatten_cons, List.flatten_nil, List.append_nil, List.cons_append,
    List.nil_append]
  after_results
  rfl

/-- The normalisation's shift as one row. -/
theorem V_beta (c : Dev nD) :
    (V m c main_v8 : S1x128.Idx → EReal) = shapeCast S1x128 (m (c, Proc.tc.devRef main_arg9)) shapeCasts_S128_S1x128 := by
  dsimp only [V]
  simp only [hostOps0, hostOps0_1, hostOps0_2, List.flatten_cons, List.flatten_nil, List.append_nil, List.cons_append,
    List.nil_append]
  after_results
  rfl

/-! ## The same arrays read at an index -/

/-- Row `k` of the first row range is row `k` of the matrix. -/
theorem V_w1s_apply (c : Dev nD) (k : Fin 64) (j : Fin 128) :
    (V m c main_v2 : S64x128.Idx → EReal) (ix2 k j)
      = (m (c, Proc.tc.devRef main_arg4) : S256x128.Idx → EReal) (ix2 (⟨k.val, by omega⟩ : Fin 256) j) := by
  rw [V_w1s]
  exact extractStridedSlice_apply _ _ _ _ _ (fun a => match a with
    | ⟨0, _⟩ => by show k.val = 0 + k.val; omega
    | ⟨1, _⟩ => by show j.val = 0 + j.val; omega)

/-- Row `k` of the second row range is row `64 + k` of the matrix. -/
theorem V_w1d_apply (c : Dev nD) (k : Fin 64) (j : Fin 128) :
    (V m c main_v3 : S64x128.Idx → EReal) (ix2 k j)
      = (m (c, Proc.tc.devRef main_arg4) : S256x128.Idx → EReal) (ix2 (⟨64 + k.val, by omega⟩ : Fin 256) j) := by
  rw [V_w1d]
  exact extractStridedSlice_apply _ _ _ _ _ (fun a => match a with
    | ⟨0, _⟩ => by show 64 + k.val = 64 + k.val; omega
    | ⟨1, _⟩ => by show j.val = 0 + j.val; omega)

/-- Row `k` of the third row range is row `128 + k` of the matrix. -/
theorem V_w1e_apply (c : Dev nD) (k : Fin 128) (j : Fin 128) :
    (V m c main_v4 : S128x128.Idx → EReal) (ix2 k j)
      = (m (c, Proc.tc.devRef main_arg4) : S256x128.Idx → EReal) (ix2 (⟨128 + k.val, by omega⟩ : Fin 256) j) := by
  rw [V_w1e]
  exact extractStridedSlice_apply _ _ _ _ _ (fun a => match a with
    | ⟨0, _⟩ => by show 128 + k.val = 128 + k.val; omega
    | ⟨1, _⟩ => by show j.val = 0 + j.val; omega)

/-- A 128-vector laid out as one row, read at column `j`. -/
theorem row_apply (v : S128.Idx → EReal) (j : Fin 128) :
    shapeCast S1x128 v shapeCasts_S128_S1x128 (ix2 (0 : Fin 1) j) = v (ix1 j) :=
  shapeCast_apply _ _ _ _ (by rw [Shape.rowMajor_val_one, Shape.rowMajor_val_two]; show j.val = 0 * 128 + j.val; omega)

theorem V_b1_apply (c : Dev nD) (j : Fin 128) :
    (V m c main_v5 : S1x128.Idx → EReal) (ix2 (0 : Fin 1) j) = (m (c, Proc.tc.devRef main_arg5) : S128.Idx → EReal) (ix1 j) := by
  rw [V_b1]; exact row_apply _ j

theorem V_b2_apply (c : Dev nD) (j : Fin 128) :
    (V m c main_v6 : S1x128.Idx → EReal) (ix2 (0 : Fin 1) j) = (m (c, Proc.tc.devRef main_arg7) : S128.Idx → EReal) (ix1 j) := by
  rw [V_b2]; exact row_apply _ j

theorem V_gamma_apply (c : Dev nD) (j : Fin 128) :
    (V m c main_v7 : S1x128.Idx → EReal) (ix2 (0 : Fin 1) j) = (m (c, Proc.tc.devRef main_arg8) : S128.Idx → EReal) (ix1 j) := by
  rw [V_gamma]; exact row_apply _ j

theorem V_beta_apply (c : Dev nD) (j : Fin 128) :
    (V m c main_v8 : S1x128.Idx → EReal) (ix2 (0 : Fin 1) j) = (m (c, Proc.tc.devRef main_arg9) : S128.Idx → EReal) (ix1 j) := by
  rw [V_beta]; exact row_apply _ j

end Cert.KernelIdeal.Prologue

end
-- ==== Proof.KernelArray.lean ====
/-
  From the blocks to the whole array, on the kernel's side.

  The output of 640000 rows is written in 250 blocks of 2560 rows, block `t` by grid point `t`; the point reads rows
  `2560 t … 2560 t + 2559` of the two gathered node tables and of the edge features, and every parameter array whole.
  What it stores at row `r`, column `n` of its block is the row update of those three rows, so block `t` of the output
  is block `t` of ONE function of the arrays the region finds, and since every row lies in exactly the block numbered
  by its quotient by 2560 the blocks cover the array: the array ends holding that function. Reading the region's
  arrays back to the program's arguments (the gathers at the wrapped row numbers, the three row ranges of the first
  layer's matrix, the 128-vectors as single rows) gives the update of the arguments themselves.
-/
import proofs.«431330_j38311108280938_1_alg».proof.Proof.ValuePatched
import proofs.«431330_j38311108280938_1_alg».proof.Proof.RowSpec
import proofs.«431330_j38311108280938_1_alg».proof.Proof.KernelRow
import proofs.«431330_j38311108280938_1_alg».proof.Proof.Prologue
import Idealize.ShloMosaic.Lib.Pipeline.Value
import Idealize.ShloMosaic.Lib.ValueIdx

set_option maxRecDepth 16384

noncomputable section

namespace Cert.KernelIdeal.EdgeArray

open Cert.KernelIdeal Cert.KernelIdeal.Gen Cert.KernelIdeal.ValueP
open Idealize.ShloMosaic Idealize.ShloMosaic.TcCoe Idealize.SL.Sem Idealize.ShloMosaic.ValueIdx
open Idealize.ShloMosaic.Pipeline (Dat)
open Cert.EdgeRow

variable (m : (ℓ : Loc nD τ sig) → Buf (Elt Ideal) ℓ) (ρ : Dev nD → PrngReg)

/-! ## The row update depends on its eleven arguments pointwise -/

theorem rowOut_congr {s s' d d' : Fin 64 → EReal} {x x' : Fin 128 → EReal} {ws ws' wd wd' : Fin 64 → Fin 128 → EReal}
    {we we' : Fin 128 → Fin 128 → EReal} {b1 b1' : Fin 128 → EReal} {w2 w2' : Fin 128 → Fin 128 → EReal}
    {b2 b2' γ γ' β β' : Fin 128 → EReal} (n : Fin 128)
    (hs : ∀ k, s k = s' k) (hd : ∀ k, d k = d' k) (hx : ∀ k, x k = x' k) (hws : ∀ k j, ws k j = ws' k j)
    (hwd : ∀ k j, wd k j = wd' k j) (hwe : ∀ k j, we k j = we' k j) (hb1 : ∀ j, b1 j = b1' j)
    (hw2 : ∀ k j, w2 k j = w2' k j) (hb2 : ∀ j, b2 j = b2' j) (hγ : ∀ j, γ j = γ' j) (hβ : ∀ j, β j = β' j) :
    rowOut s d x ws wd we b1 w2 b2 γ β n = rowOut s' d' x' ws' wd' we' b1' w2' b2' γ' β' n := by
  obtain rfl : s = s' := funext hs
  obtain rfl : d = d' := funext hd
  obtain rfl : x = x' := funext hx
  obtain rfl : ws = ws' := funext fun k => funext (hws k)
  obtain rfl : wd = wd' := funext fun k => funext (hwd k)
  obtain rfl : we = we' := funext fun k => funext (hwe k)
  obtain rfl : b1 = b1' := funext hb1
  obtain rfl : w2 = w2' := funext fun k => funext (hw2 k)
  obtain rfl : b2 = b2' := funext hb2
  obtain rfl : γ = γ' := funext hγ
  obtain rfl : β = β' := funext hβ
  rfl

/-! ## The arrays the region finds, by their literal types -/

abbrev srcA (c : Dev nD) : S640000x64.Idx → EReal := V m c (Pipeline.arrRef spec0 0)
abbrev dstA (c : Dev nD) : S640000x64.Idx → EReal := V m c (Pipeline.arrRef spec0 1)
abbrev edgeA (c : Dev nD) : S640000x128.Idx → EReal := V m c (Pipeline.arrRef spec0 2)
abbrev w1sA (c : Dev nD) : S64x128.Idx → EReal := V m c (Pipeline.arrRef spec0 3)
abbrev w1dA (c : Dev nD) : S64x128.Idx → EReal := V m c (Pipeline.arrRef spec0 4)
abbrev w1eA (c : Dev nD) : S128x128.Idx → EReal := V m c (Pipeline.arrRef spec0 5)
abbrev b1A (c : Dev nD) : S1x128.Idx → EReal := V m c (Pipeline.arrRef spec0 6)
abbrev w2A (c : Dev nD) : S128x128.Idx → EReal := V m c (Pipeline.arrRef spec0 7)
abbrev b2A (c : Dev nD) : S1x128.Idx → EReal := V m c (Pipeline.arrRef spec0 8)
abbrev gammaA (c : Dev nD) : S1x128.Idx → EReal := V m c (Pipeline.arrRef spec0 9)
abbrev betaA (c : Dev nD) : S1x128.Idx → EReal := V m c (Pipeline.arrRef spec0 10)

/-- The update of every edge, as one function of the arrays the region finds. -/
def GV (c : Dev nD) : S640000x128.Idx → EReal := fun i =>
  rowOut (fun k => srcA m c (ix2 (i 0 : Fin 640000) k)) (fun k => dstA m c (ix2 (i 0 : Fin 640000) k))
    (fun k => edgeA m c (ix2 (i 0 : Fin 640000) k))
    (fun k j => w1sA m c (ix2 k j)) (fun k j => w1dA m c (ix2 k j)) (fun k j => w1eA m c (ix2 k j))
    (fun j => b1A m c (ix2 (0 : Fin 1) j)) (fun k j => w2A m c (ix2 k j)) (fun j => b2A m c (ix2 (0 : Fin 1) j))
    (fun j => gammaA m c (ix2 (0 : Fin 1) j)) (fun j => betaA m c (ix2 (0 : Fin 1) j)) (i 1 : Fin 128)

/-! ## One block -/

theorem hz : (![0, 0] : Fin 2 → Nat) = fun _ => 0 := funext fun a => by fin_cases a <;> rfl

/-- What the body stores at row `r`, column `n` of its block is the row update of row `r` of its three row blocks. -/
theorem out_apply (x0 x1 : Vec Ideal S2560x64 .f32) (x2 : Vec Ideal S2560x128 .f32) (x3 x4 : Vec Ideal S64x128 .f32)
    (x5 : Vec Ideal S128x128 .f32) (x6 : Vec Ideal S1x128 .f32) (x7 : Vec Ideal S128x128 .f32)
    (x8 x9 x10 : Vec Ideal S1x128 .f32) (r : Fin 2560) (n : Fin 128) :
    out0_11 x0 x1 x2 x3 x4 x5 x6 x7 x8 x9 x10 (ix2 r n)
      = rowOut (fun k => x0 (ix2 r k)) (fun k => x1 (ix2 r k)) (fun k => x2 (ix2 r k))
          (fun k j => x3 (ix2 k j)) (fun k j => x4 (ix2 k j)) (fun k j => x5 (ix2 k j))
          (fun j => x6 (ix2 (0 : Fin 1) j)) (fun k j => x7 (ix2 k j)) (fun j => x8 (ix2 (0 : Fin 1) j))
          (fun j => x9 (ix2 (0 : Fin 1) j)) (fun j => x10 (ix2 (0 : Fin 1) j)) n := by
  unfold out0_11
  rw [canon11_eq]
  simp only [View.ld_unit_zero (S := S2560x64) hz, View.ld_unit_zero (S := S2560x128) hz,
    View.ld_unit_zero (S := S64x128) hz, View.ld_unit_zero (S := S128x128) hz, View.ld_unit_zero (S := S1x128) hz]
  exact Cert.KernelIdeal.EdgeRowValue.E11_apply x2 x0 x1 x3 x4 x5 x6 x7 x8 x9 x10 r n

/-- The printed index maps over the grid: the three row windows and the output window sit at block `t` of their
    first axis, every other window at block 0 of both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-! ### A window's block at a point, read off ANY contents of its array

These say where a block's entry sits in its array; they hold of every array, so they are stated of an arbitrary one. -/

/-- Row `r` of the first node table's block at point `t` is row `2560 t + r` of the table. -/
theorem blk_src (A : S640000x64.Idx → EReal) (t : Fin cfg0.N) (r : Fin 2560) (k : Fin 64) (hR : t.val * 2560 + r.val < 640000) :
    ((cfg0.win 0).blk t).view.read (Elt Ideal) A (ix2 r k) = A (ix2 (⟨t.val * 2560 + r.val, hR⟩ : Fin 640000) k) := by
  obtain ⟨a0, a1, b0, b1, c0, c1, -⟩ := idx_facts t
  have hr : r.val < 2560 := r.isLt
  have hk : k.val < 64 := k.isLt
  show A (((cfg0.win 0).blk t).view.emb (ix2 r k)) = A (ix2 (⟨t.val * 2560 + r.val, hR⟩ : Fin 640000) k)
  refine congrArg A (funext fun a => Fin.ext ?_)
  match a with
  | ⟨0, _⟩ => show win0_0.index t (0 : Fin 2) * 2560 + 1 * r.val = t.val * 2560 + r.val; omega
  | ⟨1, _⟩ => show win0_0.index t (1 : Fin 2) * 64 + 1 * k.val = k.val; omega

/-- The same for the second node table. -/
theorem blk_dst (A : S640000x64.Idx → EReal) (t : Fin cfg0.N) (r : Fin 2560) (k : Fin 64) (hR : t.val * 2560 + r.val < 640000) :
    ((cfg0.win 1).blk t).view.read (Elt Ideal) A (ix2 r k) = A (ix2 (⟨t.val * 2560 + r.val, hR⟩ : Fin 640000) k) := by
  obtain ⟨a0, a1, b0, b1, c0, c1, -⟩ := idx_facts t
  have hr : r.val < 2560 := r.isLt
  have hk : k.val < 64 := k.isLt
  show A (((cfg0.win 1).blk t).view.emb (ix2 r k)) = A (ix2 (⟨t.val * 2560 + r.val, hR⟩ : Fin 640000) k)
  refine congrArg A (funext fun a => Fin.ext ?_)
  match a with
  | ⟨0, _⟩ => show win0_1.index t (0 : Fin 2) * 2560 + 1 * r.val = t.val * 2560 + r.val; omega
  | ⟨1, _⟩ => show win0_1.index t (1 : Fin 2) * 64 + 1 * k.val = k.val; omega

/-- The same for the edge features. -/
theorem blk_edge (A : S640000x128.Idx → EReal) (t : Fin cfg0.N) (r : Fin 2560) (k : Fin 128) (hR : t.val * 2560 + r.val < 640000) :
    ((cfg0.win 2).blk t).view.read (Elt Ideal) A (ix2 r k) = A (ix2 (⟨t.val * 2560 + r.val, hR⟩ : Fin 640000) k) := by
  obtain ⟨a0, a1, b0, b1, c0, c1, -⟩ := idx_facts t
  have hr : r.val < 2560 := r.isLt
  have hk : k.val < 128 := k.isLt
  show A (((cfg0.win 2).blk t).view.emb (ix2 r k)) = A (ix2 (⟨t.val * 2560 + r.val, hR⟩ : Fin 640000) k)
  refine congrArg A (funext fun a => Fin.ext ?_)
  match a with
  | ⟨0, _⟩ => show win0_2.index t (0 : Fin 2) * 2560 + 1 * r.val = t.val * 2560 + r.val; omega
  | ⟨1, _⟩ => show win0_2.index t (1 : Fin 2) * 128 + 1 * k.val = k.val; omega

/-- A parameter window's block is its whole array at every point: the first layer's rows for the first node. -/
theorem blk_w1s (A : S64x128.Idx → EReal) (t : Fin cfg0.N) (k : Fin 64) (j : Fin 128) :
    ((cfg0.win 3).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 64 := k.isLt
  have hj : j.val < 128 := j.isLt
  show A (((cfg0.win 3).blk t).view.emb (ix2 k j)) = A (ix2 k j)
  refine congrArg A (funext fun a => Fin.ext ?_)
  match a with
  | ⟨0, _⟩ => show win0_3.index t (0 : Fin 2) * 64 + 1 * k.val = k.val; omega
  | ⟨1, _⟩ => show win0_3.index t (1 : Fin 2) * 128 + 1 * j.val = j.val; omega

/-- The first layer's rows for the second node. -/
theorem blk_w1d (A : S64x128.Idx → EReal) (t : Fin cfg0.N) (k : Fin 64) (j : Fin 128) :
    ((cfg0.win 4).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 64 := k.isLt
  have hj : j.val < 128 := j.isLt
  show A (((cfg0.win 4).blk t).view.emb (ix2 k j)) = A (ix2 k j)
  refine congrArg A (funext fun a => Fin.ext ?_)
  match a with
  | ⟨0, _⟩ => show win0_4.index t (0 : Fin 2) * 64 + 1 * k.val = k.val; omega
  | ⟨1, _⟩ => show win0_4.index t (1 : Fin 2) * 128 + 1 * j.val = j.val; omega

/-- The first layer's rows for the edge's own features. -/
theorem blk_w1e (A : S128x128.Idx → EReal) (t : Fin cfg0.N) (k : Fin 128) (j : Fin 128) :
    ((cfg0.win 5).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 128 := k.isLt
  have hj : j.val < 128 := j.isLt
  show A (((cfg0.win 5).blk t).view.emb (ix2 k j)) = A (ix2 k j)
  refine congrArg A (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

/-- The first layer's bias row. -/
theorem blk_b1 (A : S1x128.Idx → EReal) (t : Fin cfg0.N) (k : Fin 1) (j : Fin 128) :
    ((cfg0.win 6).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 1 := k.isLt
  have hj : j.val < 128 := j.isLt
  show A (((cfg0.win 6).blk t).view.emb (ix2 k j)) = A (ix2 k j)
  refine congrArg A (funext fun a => Fin.ext ?_)
  match a with
  | ⟨0, _⟩ => show win0_6.index t (0 : Fin 2) * 1 + 1 * k.val = k.val; omega
  | ⟨1, _⟩ => show win0_6.index t (1 : Fin 2) * 128 + 1 * j.val = j.val; omega

/-- The second layer's matrix. -/
theorem blk_w2 (A : S128x128.Idx → EReal) (t : Fin cfg0.N) (k : Fin 128) (j : Fin 128) :
    ((cfg0.win 7).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 128 := k.isLt
  have hj : j.val < 128 := j.isLt
  show A (((cfg0.win 7).blk t).view.emb (ix2 k j)) = A (ix2 k j)
  refine congrArg A (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

/-- The second layer's bias row. -/
theorem blk_b2 (A : S1x128.Idx → EReal) (t : Fin cfg0.N) (k : Fin 1) (j : Fin 128) :
    ((cfg0.win 8).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 1 := k.isLt
  have hj : j.val < 128 := j.isLt
  show A (((cfg0.win 8).blk t).view.emb (ix2 k j)) = A (ix2 k j)
  refine congrArg A (funext fun a => Fin.ext ?_)
  match a with
  | ⟨0, _⟩ => show win0_8.index t (0 : Fin 2) * 1 + 1 * k.val = k.val; omega
  | ⟨1, _⟩ => show win0_8.index t (1 : Fin 2) * 128 + 1 * j.val = j.val; omega

/-- The normalisation's scale row. -/
theorem blk_gamma (A : S1x128.Idx → EReal) (t : Fin cfg0.N) (k : Fin 1) (j : Fin 128) :
    ((cfg0.win 9).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 1 := k.isLt
  have hj : j.val < 128 := j.isLt
  show A (((cfg0.win 9).blk t).view.emb (ix2 k j)) = A (ix2 k j)
  refine congrArg A (funext fun a => Fin.ext ?_)
  match a with
  | ⟨0, _⟩ => show win0_9.index t (0 : Fin 2) * 1 + 1 * k.val = k.val; omega
  | ⟨1, _⟩ => show win0_9.index t (1 : Fin 2) * 128 + 1 * j.val = j.val; omega

/-- The normalisation's shift row. -/
theorem blk_beta (A : S1x128.Idx → EReal) (t : Fin cfg0.N) (k : Fin 1) (j : Fin 128) :
    ((cfg0.win 10).blk t).view.read (Elt Ideal) A (ix2 k j) = A (ix2 k j) := by
  obtain ⟨-, -, -, -, -, -, d0, d1, e0, e1, f0, f1, g0, g1, h0, h1, i0, i1, j0, j1, k0, k1, -⟩ := idx_facts t
  have hk : k.val < 1 := k.isLt
  have hj : j.val < 128 := j.isLt
  show A (((cfg0.win 10).blk t).view.emb (ix2 k j)) = A (ix2 k j)
  refine congrArg A (funext fun a => Fin.ext ?_)
  match a with
  | ⟨0, _⟩ => show win0_10.index t (0 : Fin 2) * 1 + 1 * k.val = k.val; omega
  | ⟨1, _⟩ => show win0_10.index t (1 : Fin 2) * 128 + 1 * j.val = j.val; omega

/-- WHAT POINT `t` WRITES BACK is block `t` of `GV`. -/
theorem flushed_eq (c : Dev nD) (t : Fin cfg0.N) :
    (dats m 0 c).flushed 11 t = ((cfg0.win 11).blk t).view.read (Elt Ideal) (GV m c) := by
  rw [flushed11]
  obtain ⟨-, -, -, -, -, -, -, -, -, -, -, -, -, -, -, -, -, -, -, -, -, -, l0, l1⟩ := idx_facts t
  funext y
  obtain ⟨r, n, rfl⟩ : ∃ (r : Fin 2560) (n : Fin 128), y = ix2 r n := ⟨y 0, y 1, eq_ix2 y⟩
  have hr : r.val < 2560 := r.isLt
  have hn : n.val < 128 := n.isLt
  have hR : t.val * 2560 + r.val < 640000 := by have := t.isLt; have hN : cfg0.N = 250 := N_0; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r n)
    = GV m c (((cfg0.win 11).blk t).view.emb (ix2 r n))
  refine (out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) r n).trans ?_
  have hE : ((cfg0.win 11).blk t).view.emb (ix2 r n)
      = (ix2 (⟨t.val * 2560 + r.val, hR⟩ : Fin 640000) n : S640000x128.Idx) := by
    funext a; apply Fin.ext
    match a with
    | ⟨0, _⟩ => show win0_11.index t (0 : Fin 2) * 2560 + 1 * r.val = t.val * 2560 + r.val; omega
    | ⟨1, _⟩ => show win0_11.index t (1 : Fin 2) * 128 + 1 * n.val = n.val; omega
  rw [hE]
  exact rowOut_congr n (fun k => blk_src (srcA m c) t r k hR) (fun k => blk_dst (dstA m c) t r k hR)
    (fun k => blk_edge (edgeA m c) t r k hR)
    (fun k j => blk_w1s (w1sA m c) t k j) (fun k j => blk_w1d (w1dA m c) t k j) (fun k j => blk_w1e (w1eA m c) t k j)
    (fun j => blk_b1 (b1A m c) t 0 j) (fun k j => blk_w2 (w2A m c) t k j) (fun j => blk_b2 (b2A m c) t 0 j)
    (fun j => blk_gamma (gammaA m c) t 0 j) (fun j => blk_beta (betaA m c) t 0 j)

/-! ## The blocks cover the array -/

/-- An index of the array is in point `t`'s block iff each coordinate is in the block's range on its axis. -/
theorem mem_blk (t : Fin cfg0.N) (i : S640000x128.Idx) :
    i ∈ ((cfg0.win 11).blk t).view.set ↔ ∀ a : Fin 2, win0_11.index t a * S2560x128.size a ≤ (i a).val
      ∧ (i a).val < win0_11.index t a * S2560x128.size a + S2560x128.size a := by
  show i ∈ ((View.whole main_v9).slice (win0_11.rect t)).set ↔ _
  rw [View.set_slice_whole, Rect.mem_set_unit]
  exact Iff.rfl

/-- Row `r` lies in the block of the point numbered `r / 2560`. -/
theorem cover (i : S640000x128.Idx) :
    ∃ t : Fin cfg0.N, (cfg0.win 11).flush t = true ∧ i ∈ ((cfg0.win 11).blk t).view.set := by
  have hi0 : (i 0).val < 640000 := (i 0).isLt
  have hi1 : (i 1).val < 128 := (i 1).isLt
  have hN : cfg0.N = 250 := N_0
  let t : Fin cfg0.N := ⟨(i 0).val / 2560, by rw [hN]; omega⟩
  obtain ⟨-, -, -, -, -, -, -, -, -, -, -, -, -, -, -, -, -, -, -, -, -, -, l0, l1⟩ := idx_facts t
  have ht : t.val = (i 0).val / 2560 := rfl
  refine ⟨t, flush0_11 t, ?_⟩
  rw [mem_blk]
  intro a
  match a with
  | ⟨0, _⟩ =>
    show win0_11.index t (0 : Fin 2) * 2560 ≤ (i 0).val ∧ (i 0).val < win0_11.index t (0 : Fin 2) * 2560 + 2560
    omega
  | ⟨1, _⟩ =>
    show win0_11.index t (1 : Fin 2) * 128 ≤ (i 1).val ∧ (i 1).val < win0_11.index t (1 : Fin 2) * 128 + 128
    omega

/-- THE ARRAY after the run is `GV`. -/
theorem final (c : Dev nD) : (dats m 0 c).arrAt 11 cfg0.N = GV m c :=
  (dats m 0 c).arrAt_eq_of_cover 11 (GV m c) (fun t _ => flushed_eq m c t) cover

/-! ## Back to the program's arguments -/

/-- With the index inputs in range, `GV` is the update of the arguments: the gathers at the wrapped row numbers, the
    edge features, and the parameters. -/
theorem GV_eq (c : Dev nD) (h : Prologue.InRange m c) :
    GV m c = edgeUpdate
      (Host.gather gather_S10000x64_S640000x1_S640000x64_1_0_n_n_0_1_164 (m (c, Proc.tc.devRef main_arg0))
        (Prologue.wrapCol (m (c, Proc.tc.devRef main_arg2))))
      (Host.gather gather_S10000x64_S640000x1_S640000x64_1_0_n_n_0_1_164 (m (c, Proc.tc.devRef main_arg0))
        (Prologue.wrapCol (m (c, Proc.tc.devRef main_arg3))))
      (m (c, Proc.tc.devRef main_arg1)) (m (c, Proc.tc.devRef main_arg4)) (m (c, Proc.tc.devRef main_arg5))
      (m (c, Proc.tc.devRef main_arg6)) (m (c, Proc.tc.devRef main_arg7)) (m (c, Proc.tc.devRef main_arg8))
      (m (c, Proc.tc.devRef main_arg9)) := by
  funext i
  unfold GV edgeUpdate
  refine rowOut_congr _ ?_ ?_ ?_ ?_ ?_ ?_ ?_ ?_ ?_ ?_ ?_
  · intro k; exact congrFun (Prologue.V_src m c h) _
  · intro k; exact congrFun (Prologue.V_dst m c h) _
  · intro k; exact congrFun (V_main_arg1 m c) _
  · intro k j; exact Prologue.V_w1s_apply m c k j
  · intro k j; exact Prologue.V_w1d_apply m c k j
  · intro k j; exact Prologue.V_w1e_apply m c k j
  · intro j; exact Prologue.V_b1_apply m c j
  · intro k j; exact congrFun (V_main_arg6 m c) _
  · intro j; exact Prologue.V_b2_apply m c j
  · intro j; exact Prologue.V_gamma_apply m c j
  · intro j; exact Prologue.V_beta_apply m c j

/-! ## The run, read -/

/-- Every weakly fair execution of the kernel program ends with its result at the update of the arguments, the
    arguments unchanged. -/
theorem run (h : ∀ c, Prologue.InRange m c) :
    θ_run defs (onTc (τ := τ) (main (F := Ideal))) ⟨m, fun _ => 0, ρ⟩ fun r => ∀ c : Dev nD,
      r.2.mem ((c : Thread nD τ).loc main_v9) = edgeUpdate
        (Host.gather gather_S10000x64_S640000x1_S640000x64_1_0_n_n_0_1_164 (m (c, Proc.tc.devRef main_arg0))
          (Prologue.wrapCol (m (c, Proc.tc.devRef main_arg2))))
        (Host.gather gather_S10000x64_S640000x1_S640000x64_1_0_n_n_0_1_164 (m (c, Proc.tc.devRef main_arg0))
          (Prologue.wrapCol (m (c, Proc.tc.devRef main_arg3))))
        (m (c, Proc.tc.devRef main_arg1)) (m (c, Proc.tc.devRef main_arg4)) (m (c, Proc.tc.devRef main_arg5))
        (m (c, Proc.tc.devRef main_arg6)) (m (c, Proc.tc.devRef main_arg7)) (m (c, Proc.tc.devRef main_arg8))
        (m (c, Proc.tc.devRef main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r hr c => ⟨((hr c).1.trans (final m c)).trans (GV_eq m c (h c)), (hr c).2⟩)
    (run_blocks m ρ)

end Cert.KernelIdeal.EdgeArray

end
-- ==== Proof.RefRow.lean ====
/-
  The reference program's result, entry by entry, is the row update of `Cert.EdgeRow`.

  The reference joins, for every edge `e`, the two gathered node rows (64 numbers each) and the edge's own 128 features
  into one row of 256 numbers and multiplies it with the 256 × 128 matrix. Column `k` of the joined row is column `k` of
  the first node's row for `k < 64`, column `k - 64` of the second node's for `64 ≤ k < 128`, and column `k - 128` of the
  edge's for `128 ≤ k`; so the sum over 256 terms is the three partial products of `proj`, their matrix rows
  0–63, 64–127 and 128–255. What follows is read stage by stage at row `e`, column `n`: the activation the
  reference writes out as `v · (1 / (1 + e^(-v)))` is `v · σ(v)` once its constant word is read as the number 1;
  a sum over a row that starts from the word of zero is the plain sum; the divisor 128 and the small constant under the
  square root are the two words `c128` and `ceps` name, left unevaluated. The two gathered node tables are kept
  whole: nothing about which node a row came from is used.
-/
import proofs.«431330_j38311108280938_1_alg».proof.Proof.Gen.ReferenceIdeal.Read
import proofs.«431330_j38311108280938_1_alg».proof.Proof.RowSpec
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws
import Mathlib.Algebra.BigOperators.Group.Finset.Basic

noncomputable section

open scoped BigOperators

namespace Cert.ReferenceIdeal.EdgeValue

open Cert.ReferenceIdeal Cert.ReferenceIdeal.Gen Idealize.ShloMosaic Idealize.ShloMosaic.ValueIdx Cert.EdgeRow

variable (x0 : (⟨S10000x64, .f32⟩ : BufTy).Contents (Elt Ideal)) (x1 : (⟨S640000x128, .f32⟩ : BufTy).Contents (Elt Ideal))
  (x2 x3 : (⟨S640000, .i32⟩ : BufTy).Contents (Elt Ideal)) (x4 : (⟨S256x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! ## The joined row, column by column -/

/-- Columns 0–63 of the joined row are the first gathered node row. -/
theorem joined_lo (e : Fin 640000) (k : Fin 64) :
    Read.val_main_v14 (F := Ideal) x0 x1 x2 x3 (ix2 e (⟨k.val, by omega⟩ : Fin 256))
      = Read.val_main_v6 (F := Ideal) x0 x2 (ix2 e k) := by
  unfold Read.val_main_v14
  refine concatenate_apply_piece (1 : Fin S640000x256.rank) _ _ _ 0 (by simp) S640000x64 _ rfl rfl 0 rfl (ix2 e k) ?_ ?_
  · intro b hb
    match b with
    | ⟨0, _⟩ => rfl
    | ⟨1, _⟩ => exact absurd rfl hb
  · simp

/-- Columns 64–127 of the joined row are the second gathered node row. -/
theorem joined_mid (e : Fin 640000) (k : Fin 64) :
    Read.val_main_v14 (F := Ideal) x0 x1 x2 x3 (ix2 e (⟨64 + k.val, by omega⟩ : Fin 256))
      = Read.val_main_v13 (F := Ideal) x0 x3 (ix2 e k) := by
  unfold Read.val_main_v14
  refine concatenate_apply_piece (1 : Fin S640000x256.rank) _ _ _ 1 (by simp) S640000x64 _ rfl rfl 64 rfl (ix2 e k) ?_ ?_
  · intro b hb
    match b with
    | ⟨0, _⟩ => rfl
    | ⟨1, _⟩ => exact absurd rfl hb
  · rfl

/-- Columns 128–255 of the joined row are the edge's own features. -/
theorem joined_hi (e : Fin 640000) (k : Fin 128) :
    Read.val_main_v14 (F := Ideal) x0 x1 x2 x3 (ix2 e (⟨128 + k.val, by omega⟩ : Fin 256))
      = x1 (ix2 e k) := by
  unfold Read.val_main_v14
  refine concatenate_apply_piece (1 : Fin S640000x256.rank) _ _ _ 2 (by simp) S640000x128 _ rfl rfl 128 rfl (ix2 e k) ?_ ?_
  · intro b hb
    match b with
    | ⟨0, _⟩ => rfl
    | ⟨1, _⟩ => exact absurd rfl hb
  · rfl

/-! ## The first layer -/

/-- Row `e` of the first layer before its activation: the three partial products of the two node rows and the
    edge's features with their blocks of the matrix, and the bias. -/
def rowP (e : Fin 640000) : Fin 128 → EReal :=
  proj (fun k => Read.val_main_v6 (F := Ideal) x0 x2 (ix2 e k)) (fun k => Read.val_main_v13 (F := Ideal) x0 x3 (ix2 e k))
    (fun k => x1 (ix2 e k))
    (fun k n => x4 (ix2 (⟨k.val, by omega⟩ : Fin 256) n)) (fun k n => x4 (ix2 (⟨64 + k.val, by omega⟩ : Fin 256) n))
    (fun k n => x4 (ix2 (⟨128 + k.val, by omega⟩ : Fin 256) n)) (fun n => x5 (ix1 n))

/-- The product of the joined row with the whole matrix, plus the bias, is `rowP`: the sum over 256 columns split
    into its first 64, next 64 and last 128 terms. -/
theorem first_layer (e : Fin 640000) (n : Fin 128) :
    Read.val_main_v18 (F := Ideal) x0 x1 x2 x3 x4 x5 (ix2 e n) = rowP x0 x1 x2 x3 x4 x5 e n := by
  have hl : ∀ k : Fin 256, Read.lidx_main_v15 (ix2 e n) k = ix2 e k := fun k =>
    funext fun a => Fin.ext (by match a with | ⟨0, _⟩ => rfl | ⟨1, _⟩ => rfl)
  have hr : ∀ k : Fin 256, Read.ridx_main_v15 (ix2 e n) k = ix2 k n := fun k =>
    funext fun a => Fin.ext (by match a with | ⟨0, _⟩ => rfl | ⟨1, _⟩ => rfl)
  have hb : Read.idx_main_v16 (Read.idx_main_v17 (ix2 e n)) = ix1 n :=
    funext fun a => Fin.ext (by match a with | ⟨0, _⟩ => rfl)
  rw [Read.val_main_v18_apply, Read.val_main_v15_apply, Read.val_main_v17_apply, Read.val_main_v16_apply, hb,
    Ideal.addf_def]
  have hs : ∑ k : Fin 256, Read.val_main_v14 (F := Ideal) x0 x1 x2 x3 (Read.lidx_main_v15 (ix2 e n) k)
        * x4 (Read.ridx_main_v15 (ix2 e n) k)
      = ∑ k : Fin 256, Read.val_main_v14 (F := Ideal) x0 x1 x2 x3 (ix2 e k) * x4 (ix2 k n) :=
    Finset.sum_congr rfl fun k _ => by rw [hl k, hr k]
  rw [hs, sum_split3]
  simp only [joined_lo, joined_mid, joined_hi]
  rfl

/-! ## The activation -/

/-- `v · (1 / (1 + e^(-v)))` with both constants the binary32 word of one is `v · σ(v)`: that word is the number 1,
    and `σ` is this quotient by definition. -/
theorem silu_host (v : EReal) :
    v * Ideal.div (Ideal.ofBits .f32 0x3F800000#32) (Ideal.ofBits .f32 0x3F800000#32 + Ideal.exp (-v)) = silu v := by
  rw [Ideal.ofBits_one_f32]
  rfl

/-- The activated first layer. -/
theorem act1 (e : Fin 640000) (n : Fin 128) :
    Read.val_main_v19 (F := Ideal) x0 x1 x2 x3 x4 x5 (ix2 e n) = silu (rowP x0 x1 x2 x3 x4 x5 e n) := by
  rw [Read.val_main_v19_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, first_layer]
  exact silu_host _

/-! ## The second layer and the residual sum -/

/-- Row `e` of the second layer before its activation. -/
def rowQ (e : Fin 640000) : Fin 128 → EReal :=
  layer2 (rowP x0 x1 x2 x3 x4 x5 e) (fun k n => x6 (ix2 k n)) (fun n => x7 (ix1 n))

/-- The product of the activated first layer with the second matrix, plus its bias, is `rowQ`. -/
theorem second_layer (e : Fin 640000) (n : Fin 128) :
    Read.val_main_v23 (F := Ideal) x0 x1 x2 x3 x4 x5 x6 x7 (ix2 e n) = rowQ x0 x1 x2 x3 x4 x5 x6 x7 e n := by
  have hl : ∀ k : Fin 128, Read.lidx_main_v20 (ix2 e n) k = ix2 e k := fun k =>
    funext fun a => Fin.ext (by match a with | ⟨0, _⟩ => rfl | ⟨1, _⟩ => rfl)
  have hr : ∀ k : Fin 128, Read.ridx_main_v20 (ix2 e n) k = ix2 k n := fun k =>
    funext fun a => Fin.ext (by match a with | ⟨0, _⟩ => rfl | ⟨1, _⟩ => rfl)
  have hb : Read.idx_main_v21 (Read.idx_main_v22 (ix2 e n)) = ix1 n :=
    funext fun a => Fin.ext (by match a with | ⟨0, _⟩ => rfl)
  rw [Read.val_main_v23_apply, Read.val_main_v20_apply, Read.val_main_v22_apply, Read.val_main_v21_apply, hb,
    Ideal.addf_def]
  have hs : ∑ k : Fin 128, Read.val_main_v19 (F := Ideal) x0 x1 x2 x3 x4 x5 (Read.lidx_main_v20 (ix2 e n) k)
        * x6 (Read.ridx_main_v20 (ix2 e n) k)
      = ∑ k : Fin 128, silu (rowP x0 x1 x2 x3 x4 x5 e k) * x6 (ix2 k n) :=
    Finset.sum_congr rfl fun k _ => by rw [hl k, hr k, act1]
  rw [hs]
  rfl

/-- Row `e` after the second activation, added back to the edge's features. -/
def rowY (e : Fin 640000) : Fin 128 → EReal :=
  resid (fun k => x1 (ix2 e k)) (rowQ x0 x1 x2 x3 x4 x5 x6 x7 e)

/-- The edge's features plus the activated second layer are `rowY`. -/
theorem residual (e : Fin 640000) (n : Fin 128) :
    Read.val_main_v25 (F := Ideal) x0 x1 x2 x3 x4 x5 x6 x7 (ix2 e n) = rowY x0 x1 x2 x3 x4 x5 x6 x7 e n := by
  rw [Read.val_main_v25_apply, Read.val_main_v24_apply, Read.val_main_call1_v5_apply, Read.val_main_call1_v4_apply,
    Read.val_main_call1_cst_0_apply, Read.val_main_call1_v3_apply, Read.val_main_call1_v2_apply,
    Read.val_main_call1_cst_apply, Read.val_main_call1_v1_apply, Read.val_main_call1_v0_apply, second_layer]
  exact congrArg (x1 (ix2 e n) + ·) (silu_host _)

/-! ## The normalisation -/

/-- The row mean: the row's sum, begun at the word of zero, over the word `c128`. -/
theorem mean_at (e : Fin 640000) :
    Read.val_main_v29 (F := Ideal) x0 x1 x2 x3 x4 x5 x6 x7 (ix2 e (0 : Fin 1)) = mean (rowY x0 x1 x2 x3 x4 x5 x6 x7 e) := by
  have h27 : Read.idx_main_v27 (ix2 e (0 : Fin 1)) = ix1 e :=
    funext fun a => Fin.ext (by match a with | ⟨0, _⟩ => rfl)
  have h26 : ∀ k : Fin 128, Read.idx_main_v26 (ix1 e) k = ix2 e k := fun k =>
    funext fun a => Fin.ext (by match a with | ⟨0, _⟩ => rfl | ⟨1, _⟩ => rfl)
  rw [Read.val_main_v29_apply, Read.val_main_v27_apply, h27, Read.val_main_v26_apply, Read.val_main_cst_apply,
    Read.val_main_v28_apply, Read.val_main_cst_3_apply, Ideal.hostDivf_def, Ideal.ofBits_def, Ideal.ofBits_def,
    Ideal.ofBits_zero_f32, zero_add]
  have hs : ∑ k : Fin 128, Read.val_main_v25 (F := Ideal) x0 x1 x2 x3 x4 x5 x6 x7 (Read.idx_main_v26 (ix1 e) k)
      = ∑ k : Fin 128, rowY x0 x1 x2 x3 x4 x5 x6 x7 e k :=
    Finset.sum_congr rfl fun k _ => by rw [h26 k, residual]
  rw [hs]
  rfl

/-- An entry less its row's mean, as formed under the square. -/
theorem centred_a (e : Fin 640000) (n : Fin 128) :
    Read.val_main_v31 (F := Ideal) x0 x1 x2 x3 x4 x5 x6 x7 (ix2 e n)
      = rowY x0 x1 x2 x3 x4 x5 x6 x7 e n - mean (rowY x0 x1 x2 x3 x4 x5 x6 x7 e) := by
  have h30 : Read.idx_main_v30 (ix2 e n) = ix2 e (0 : Fin 1) :=
    funext fun a => Fin.ext (by match a with | ⟨0, _⟩ => rfl | ⟨1, _⟩ => rfl)
  rw [Read.val_main_v31_apply, Read.val_main_v30_apply, h30, mean_at, residual, Ideal.subf_def]

/-- An entry less its row's mean, as formed a second time for the product with the reciprocal root. -/
theorem centred_b (e : Fin 640000) (n : Fin 128) :
    Read.val_main_v38 (F := Ideal) x0 x1 x2 x3 x4 x5 x6 x7 (ix2 e n)
      = rowY x0 x1 x2 x3 x4 x5 x6 x7 e n - mean (rowY x0 x1 x2 x3 x4 x5 x6 x7 e) := by
  have h37 : Read.idx_main_v37 (ix2 e n) = ix2 e (0 : Fin 1) :=
    funext fun a => Fin.ext (by match a with | ⟨0, _⟩ => rfl | ⟨1, _⟩ => rfl)
  rw [Read.val_main_v38_apply, Read.val_main_v37_apply, h37, mean_at, residual, Ideal.subf_def]

/-- The mean square deviation of a row. -/
theorem var_at (e : Fin 640000) :
    Read.val_main_v36 (F := Ideal) x0 x1 x2 x3 x4 x5 x6 x7 (ix2 e (0 : Fin 1))
      = mean (fun k => (rowY x0 x1 x2 x3 x4 x5 x6 x7 e k - mean (rowY x0 x1 x2 x3 x4 x5 x6 x7 e))
          * (rowY x0 x1 x2 x3 x4 x5 x6 x7 e k - mean (rowY x0 x1 x2 x3 x4 x5 x6 x7 e))) := by
  have h34 : Read.idx_main_v34 (ix2 e (0 : Fin 1)) = ix1 e :=
    funext fun a => Fin.ext (by match a with | ⟨0, _⟩ => rfl)
  have h33 : ∀ k : Fin 128, Read.idx_main_v33 (ix1 e) k = ix2 e k := fun k =>
    funext fun a => Fin.ext (by match a with | ⟨0, _⟩ => rfl | ⟨1, _⟩ => rfl)
  rw [Read.val_main_v36_apply, Read.val_main_v34_apply, h34, Read.val_main_v33_apply, Read.val_main_cst_4_apply,
    Read.val_main_v35_apply, Read.val_main_cst_5_apply, Ideal.hostDivf_def, Ideal.ofBits_def, Ideal.ofBits_def,
    Ideal.ofBits_zero_f32, zero_add]
  have hs : ∑ k : Fin 128, Read.val_main_v32 (F := Ideal) x0 x1 x2 x3 x4 x5 x6 x7 (Read.idx_main_v33 (ix1 e) k)
      = ∑ k : Fin 128, (rowY x0 x1 x2 x3 x4 x5 x6 x7 e k - mean (rowY x0 x1 x2 x3 x4 x5 x6 x7 e))
          * (rowY x0 x1 x2 x3 x4 x5 x6 x7 e k - mean (rowY x0 x1 x2 x3 x4 x5 x6 x7 e)) :=
    Finset.sum_congr rfl fun k _ => by rw [h33 k, Read.val_main_v32_apply, centred_a, Ideal.mulf_def]
  rw [hs]
  rfl

/-- The reference's result at row `e`, column `n`: the centred entry times the reciprocal root of the mean square
    deviation plus `ceps`, times `γ n`, plus `β n`. -/
theorem result_at (e : Fin 640000) (n : Fin 128) :
    Read.val_main_v49 (F := Ideal) x0 x1 x2 x3 x4 x5 x6 x7 x8 x9 (ix2 e n)
      = lnorm (rowY x0 x1 x2 x3 x4 x5 x6 x7 e) (fun n => x8 (ix1 n)) (fun n => x9 (ix1 n)) n := by
  have h42 : Read.idx_main_v42 (ix2 e n) = ix2 e (0 : Fin 1) :=
    funext fun a => Fin.ext (by match a with | ⟨0, _⟩ => rfl | ⟨1, _⟩ => rfl)
  have h45 : Read.idx_main_v44 (Read.idx_main_v45 (ix2 e n)) = ix1 n :=
    funext fun a => Fin.ext (by match a with | ⟨0, _⟩ => rfl)
  have h48 : Read.idx_main_v47 (Read.idx_main_v48 (ix2 e n)) = ix1 n :=
    funext fun a => Fin.ext (by match a with | ⟨0, _⟩ => rfl)
  rw [Read.val_main_v49_apply, Read.val_main_v46_apply, Read.val_main_v43_apply, centred_b, Read.val_main_v42_apply,
    h42, Read.val_main_v41_apply, Read.val_main_v40_apply, var_at, Read.val_main_v39_apply,
    Read.val_main_cst_6_apply, Read.val_main_v45_apply, Read.val_main_v44_apply, h45, Read.val_main_v48_apply,
    Read.val_main_v47_apply, h48]
  rfl

/-! ## The whole result -/

/-- The reference's result array is the row update of the two gathered node tables, the edge features and the
    parameters: entry by entry both are `rowOut` of row `i 0` at column `i 1`. -/
theorem result_eq (x0 : (⟨S10000x64, .f32⟩ : BufTy).Contents (Elt Ideal))
    (x1 : (⟨S640000x128, .f32⟩ : BufTy).Contents (Elt Ideal))
    (x2 x3 : (⟨S640000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 x8 x9 : (⟨S128, .f32⟩ : BufTy).Contents (Elt Ideal)) :
    Read.val_main_v49 (F := Ideal) x0 x1 x2 x3 x4 x5 x6 x7 x8 x9
      = Cert.EdgeRow.edgeUpdate (Read.val_main_v6 (F := Ideal) x0 x2) (Read.val_main_v13 (F := Ideal) x0 x3)
          x1 x4 x5 x6 x7 x8 x9 := by
  funext i
  obtain ⟨e, n, rfl⟩ : ∃ (e : Fin 640000) (n : Fin 128), i = ix2 e n := ⟨i 0, i 1, eq_ix2 i⟩
  rw [result_at]
  rfl

end Cert.ReferenceIdeal.EdgeValue

end
-- ==== Proof.lean ====
/-
  The certificate of the edge update: a kernel that gathers two node rows per edge outside its pipelined region and
  runs, block by block, a two-layer perceptron with `v · σ(v)` activations, a residual and a layer normalisation,
  against the same computation written with whole-array operations.

  Over the extended reals the two programs are one function of their arguments wherever both index inputs name rows of
  the node table, a negative number counting from the end: the precondition asks every entry of both to lie in
  `[-10000, 10000)` for the table of 10000 rows. There the kernel's gather, which answers a number outside the table
  with a fill value, is the reference's bare gather (`Prologue.V_src`, `V_dst`); the kernel's first layer, three
  partial products over the two node rows and the edge's own row, is the reference's one product with the joined row
  (`EdgeRow.sum_split3`, which only reorders a finite sum); every later operation is the same on both sides, with the
  logistic function one expression `1 / (1 + e^(-v))` in both. No finiteness of the float inputs is used.

  The kernel's result array is read off its frame block by block (`EdgeArray.run`), the reference's off its run
  operation by operation (`EdgeValue.result_eq`); both are `EdgeRow.edgeUpdate` of the arguments. The idealized
  kernel is the kernel's own text read over the extended reals, so `preserves` has nothing to state.
-/
import proofs.«431330_j38311108280938_1_alg».proof.Defs
import proofs.«431330_j38311108280938_1_alg».proof.Proof.Gen.Kernel
import proofs.«431330_j38311108280938_1_alg».proof.Proof.Gen.Kernel.Skeleton
import proofs.«431330_j38311108280938_1_alg».proof.Proof.Gen.Kernel.Launch
import proofs.«431330_j38311108280938_1_alg».proof.Proof.Gen.Kernel.Points
import proofs.«431330_j38311108280938_1_alg».proof.Proof.Gen.Kernel.Frame
import proofs.«431330_j38311108280938_1_alg».proof.Proof.Gen.KernelIdeal
import proofs.«431330_j38311108280938_1_alg».proof.Proof.Gen.KernelIdeal.Skeleton
import proofs.«431330_j38311108280938_1_alg».proof.Proof.Gen.KernelIdeal.Launch
import proofs.«431330_j38311108280938_1_alg».proof.Proof.Gen.KernelIdeal.Points
import proofs.«431330_j38311108280938_1_alg».proof.Proof.Gen.KernelIdeal.Frame
import proofs.«431330_j38311108280938_1_alg».proof.Proof.Gen.ReferenceIdeal
import proofs.«431330_j38311108280938_1_alg».proof.Proof.Gen.Pre_finite_inputs
import proofs.«431330_j38311108280938_1_alg».proof.Proof.ValuePatched
import proofs.«431330_j38311108280938_1_alg».proof.Proof.Gen.ReferenceIdeal.Run
import proofs.«431330_j38311108280938_1_alg».proof.Proof.Gen.ReferenceIdeal.Read
import proofs.«431330_j38311108280938_1_alg».proof.Proof.IndexRange
import proofs.«431330_j38311108280938_1_alg».proof.Proof.KernelArray
import proofs.«431330_j38311108280938_1_alg».proof.Proof.RefRow
import Idealize.ShloMosaic.Adequacy
import Idealize.ShloMosaic.Init

set_option maxRecDepth 16384

noncomputable section

namespace Cert.Proof

open Idealize.ShloMosaic Idealize.SL.Sem

/-! ## The reference's gathered tables are the kernel's -/

/-- The reference's first gathered table is the gather at the first index input, a negative number wrapped. -/
theorem gather_src {F : FTy → Type} [FloatOps F] (x0 : (⟨Cert.ReferenceIdeal.S10000x64, .f32⟩ : BufTy).Contents (Elt F))
    (x2 : (⟨Cert.ReferenceIdeal.S640000, .i32⟩ : BufTy).Contents (Elt F)) :
    Cert.ReferenceIdeal.Read.val_main_v6 (F := F) x0 x2
      = Host.gather Cert.KernelIdeal.gather_S10000x64_S640000x1_S640000x64_1_0_n_n_0_1_164 x0
          (Cert.KernelIdeal.Prologue.wrapCol x2) := rfl

/-- The reference's second gathered table, likewise from the second index input. -/
theorem gather_dst {F : FTy → Type} [FloatOps F] (x0 : (⟨Cert.ReferenceIdeal.S10000x64, .f32⟩ : BufTy).Contents (Elt F))
    (x3 : (⟨Cert.ReferenceIdeal.S640000, .i32⟩ : BufTy).Contents (Elt F)) :
    Cert.ReferenceIdeal.Read.val_main_v13 (F := F) x0 x3
      = Host.gather Cert.KernelIdeal.gather_S10000x64_S640000x1_S640000x64_1_0_n_n_0_1_164 x0
          (Cert.KernelIdeal.Prologue.wrapCol x3) := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments and satisfy the precondition, both programs end with their result at
    the edge update of the arguments. -/
theorem algebraic : Cert.algebraic_KernelIdeal_ReferenceIdeal := by
  intro m ρ m' ρ' hpre hagree
  have hr : ∀ c, Cert.KernelIdeal.Prologue.InRange m c := fun c =>
    Cert.IndexRange.of_pre (F := Ideal) _ _ _ _ _ _ _ _ _ _ (hpre c)
  refine ⟨_, Cert.KernelIdeal.EdgeArray.run m ρ hr, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v49_eq, Cert.ReferenceIdeal.EdgeValue.result_eq, gather_src, gather_dst,
    h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
